-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  reducesTo_S_S_d : S_.ReducesTo [] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v47 : IVec S_ 1) (main_v50 : IVec S1 1) : IVec S_ 1 :=
  let main_c_19 : IVec S_ 1 := constantI S_ 1 1#1
  let main_v51 : IVec S_ 1 := (fun x v => Host.reduce IntOp.andi x v reducesTo_S1_S_d0 h_S_) main_v50 main_c_19
  let main_v52 : IVec S_ 1 := andi main_v47 main_v51
  main_v52

def fn_part2 {F : FTy → Type} [FloatOps F] (main_arg8 : FVec F S128 .f32) (main_arg9 : FVec F S128x1 .f32) (main_arg10 : FVec F S1 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg8
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x1 .f32 := Host.absf main_arg9
  let main_cst_16 : FVec F S_ .f32 := constant S_ .f32 0x7F800000#32
  let main_v44 : FVec F S128x1 .f32 := broadcastInDim S128x1 ![] bcast_S_S128x1 main_cst_16
  let main_v45 : IVec S128x1 1 := cmpf .olt main_v43 main_v44
  let main_c_17 : IVec S_ 1 := constantI S_ 1 1#1
  let main_v46 : IVec S_ 1 := (fun x v => Host.reduce IntOp.andi x v reducesTo_S128x1_S_d0_1 h_S_) main_v45 main_c_17
  let main_v47 : IVec S_ 1 := andi main_v42 main_v46
  let main_v48 : FVec F S1 .f32 := Host.absf main_arg10
  let main_cst_18 : FVec F S_ .f32 := constant S_ .f32 0x7F800000#32
  let main_v49 : FVec F S1 .f32 := broadcastInDim S1 ![] bcast_S_S1 main_cst_18
  let main_v50 : IVec S1 1 := cmpf .olt main_v48 main_v49
  fn_part3 (F := F) main_v47 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_v12 : IVec S_ 1) (main_v15 : IVec S4x128 1) (main_c_5 : IVec S_ 1) : IVec S_ 1 :=
  let main_v16 : IVec S_ 1 := (fun x v => Host.reduce IntOp.andi x v reducesTo_S4x128_S_d0_1 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128x128 .f32 := Host.absf main_arg5
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg6
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg7
  fn_part2 (F := F) main_arg8 main_arg9 main_arg10 main_v32 main_v33

def fn {F : FTy → Type} [FloatOps F] (main_arg0 : FVec F S50000x2 .f32) (main_arg1 : FVec F S50000x1 .f32) (main_arg2 : FVec F S_ .f32) (main_arg3 : FVec F S4x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : IVec S800000 32) (main_arg12 : IVec S800000 32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S4x128 .f32 := Host.absf main_arg3
  let main_cst_4 : FVec F S_ .f32 := constant S_ .f32 0x7F800000#32
  let main_v14 : FVec F S4x128 .f32 := broadcastInDim S4x128 ![] bcast_S_S4x128 main_cst_4
  let main_v15 : IVec S4x128 1 := cmpf .olt main_v13 main_v14
  let main_c_5 : IVec S_ 1 := constantI S_ 1 1#1
  fn_part1 (F := F) main_arg4 main_arg5 main_arg6 main_arg7 main_arg8 main_arg9 main_arg10 main_v12 main_v15 main_c_5
-- ==== Kernel.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩
abbrev S800000x1 : Shape := ⟨2, ![800000, 1]⟩
abbrev S800000x2 : Shape := ⟨2, ![800000, 2]⟩
abbrev S800000x4 : Shape := ⟨2, ![800000, 4]⟩
abbrev S800768x4 : Shape := ⟨2, ![800768, 4]⟩
abbrev S800768x1 : Shape := ⟨2, ![800768, 1]⟩
abbrev S2048x4 : Shape := ⟨2, ![2048, 4]⟩
abbrev S2048x1 : Shape := ⟨2, ![2048, 1]⟩
abbrev S1x128 : Shape := ⟨2, ![1, 128]⟩
abbrev S2048x128 : Shape := ⟨2, ![2048, 128]⟩
abbrev S1x1 : Shape := ⟨2, ![1, 1]⟩

abbrev nBuf : Space → Nat
  | .hbm => 79
  | .vmem => 12
  | .smem => 0
  | _ => 0

abbrev bufTy : (tb : Table) → Fin (tcTables nBuf tb) → BufTy
  | .hbm, ⟨0, _⟩ => ⟨S50000x2, .f32⟩
  | .hbm, ⟨1, _⟩ => ⟨S50000x1, .f32⟩
  | .hbm, ⟨2, _⟩ => ⟨S_, .f32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S50000x1, .f32⟩
  | .hbm, ⟨14, _⟩ => ⟨S50000x1, .f32⟩
  | .hbm, ⟨15, _⟩ => ⟨S50000x2, .f32⟩
  | .hbm, ⟨16, _⟩ => ⟨S50000x2, .f32⟩
  | .hbm, ⟨17, _⟩ => ⟨S50000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x2, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x1, .f32⟩
  | .hbm, ⟨54, _⟩ => ⟨S800000x2, .f32⟩
  | .hbm, ⟨55, _⟩ => ⟨S800000x1, .f32⟩
  | .hbm, ⟨56, _⟩ => ⟨S800000x4, .f32⟩
  | .hbm, ⟨57, _⟩ => ⟨S_, .i32⟩
  | .hbm, ⟨58, _⟩ => ⟨S_, .f32⟩
  | .hbm, ⟨59, _⟩ => ⟨S800768x4, .f32⟩
  | .hbm, ⟨60, _⟩ => ⟨S128x128, .bf16⟩
  | .hbm, ⟨61, _⟩ => ⟨S128x128, .bf16⟩
  | .hbm, ⟨62, _⟩ => ⟨S128x1, .bf16⟩
  | .hbm, ⟨63, _⟩ => ⟨S800768x1, .f32⟩
  | .hbm, ⟨64, _⟩ => ⟨S800000x1, .f32⟩
  | .hbm, ⟨65, _⟩ => ⟨S_, .f32⟩
  | .hbm, ⟨66, _⟩ => ⟨S50000x1, .f32⟩
  | .hbm, ⟨67, _⟩ => ⟨S800000x1, .i32⟩
  | .hbm, ⟨68, _⟩ => ⟨S50000x1, .f32⟩
  | .hbm, ⟨69, _⟩ => ⟨S_, .f32⟩
  | .hbm, ⟨70, _⟩ => ⟨S800000x1, .f32⟩
  | .hbm, ⟨71, _⟩ => ⟨S_, .f32⟩
  | .hbm, ⟨72, _⟩ => ⟨S50000x1, .f32⟩
  | .hbm, ⟨73, _⟩ => ⟨S800000x1, .i32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x1, .f32⟩
  | .local _ .vmem, ⟨0, _⟩ => ⟨S2048x4, .f32⟩
  | .local _ .vmem, ⟨1, _⟩ => ⟨S2048x4, .f32⟩
  | .local _ .vmem, ⟨2, _⟩ => ⟨S4x128, .f32⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x1, .bf16⟩
  | .local _ .vmem, ⟨9, _⟩ => ⟨S1, .f32⟩
  | .local _ .vmem, ⟨10, _⟩ => ⟨S2048x1, .f32⟩
  | .local _ .vmem, ⟨11, _⟩ => ⟨S2048x1, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S50000x1_S50000x1_S50000x2_d1 : Shape.Concatenates [S50000x1, S50000x1] S50000x2 1
  bcast_S_S50000x2 : S_.BroadcastsInDim S50000x2 (![] : Fin 0 → Fin S50000x2.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x2_S800000x1_S800000x1_S800000x4_d1 : Shape.Concatenates [S800000x2, S800000x1, S800000x1] S800000x4 1
  pads_S800000x4_S800768x4_07680_000 : S800000x4.Pads (![0, 0] : Fin 2 → Nat) ![768, 0] ![0, 0] S800768x4
  h_S_ : 0 < S_.numel
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  inb_S4x128_S4x128_0_0 : ∀ a, (![0, 0] : Fin 2 → Nat) a + S4x128.size a ≤ S4x128.size a
  h_S4x128 : 0 < S4x128.numel
  slices_S4x128_o0_0_S1x128 : S4x128.Slices ![0, 0] S1x128
  broadcasts_S2048x1_S2048x128 : S2048x1.Broadcasts S2048x128
  broadcasts_S1x128_S2048x128 : S1x128.Broadcasts S2048x128
  slices_S4x128_o1_0_S1x128 : S4x128.Slices ![1, 0] S1x128
  slices_S4x128_o2_0_S1x128 : S4x128.Slices ![2, 0] S1x128
  slices_S4x128_o3_0_S1x128 : S4x128.Slices ![3, 0] S1x128
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S800768x1_S800000x1_0_0 : S800768x1.Slices ![0, 0] S800000x1
  bcast_S_S50000x1 : S_.BroadcastsInDim S50000x1 (![] : Fin 0 → Fin S50000x1.rank)
  bcast_S_S800000x1 : S_.BroadcastsInDim S800000x1 (![] : Fin 0 → Fin S800000x1.rank)
  gather_S50000x2_S800000x1_S800000x2_1_0_n_n_0_1_12_wf : GatherDims.WF S50000x2 S800000x1 S800000x2 [1] [0] [] [0] [] 1 ![1, 2]
  gather_S50000x1_S800000x1_S800000x1_1_0_n_n_0_1_11_wf : GatherDims.WF S50000x1 S800000x1 S800000x1 [1] [0] [] [0] [] 1 ![1, 1]
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S800768x4.size a
  hwx0_0 : ∀ i : grid0.Coords, EltTy.bits .f32 = 32 ∨ (Rect.block (s := S800768x4) S2048x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S800768x1.size a
  hwx0_9 : ∀ i : grid0.Coords, EltTy.bits .f32 = 32 ∨ (Rect.block (s := S800768x1) S2048x1.size (cc0_transform_9 i) (hinb0_9 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v36) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩
abbrev S800000x1 : Shape := ⟨2, ![800000, 1]⟩
abbrev S800000x2 : Shape := ⟨2, ![800000, 2]⟩
abbrev S800000x4 : Shape := ⟨2, ![800000, 4]⟩
abbrev S800000x128 : Shape := ⟨2, ![800000, 128]⟩
abbrev S1x128 : Shape := ⟨2, ![1, 128]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S50000x1, .f32⟩
  | .hbm, ⟨2, _⟩ => ⟨S_, .f32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S50000x1, .f32⟩
  | .hbm, ⟨14, _⟩ => ⟨S50000x1, .f32⟩
  | .hbm, ⟨15, _⟩ => ⟨S50000x2, .f32⟩
  | .hbm, ⟨16, _⟩ => ⟨S50000x2, .f32⟩
  | .hbm, ⟨17, _⟩ => ⟨S50000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x2, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x1, .f32⟩
  | .hbm, ⟨54, _⟩ => ⟨S800000x2, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S800000x1, .f32⟩
  | .hbm, ⟨59, _⟩ => ⟨S800000x1, .f32⟩
  | .hbm, ⟨60, _⟩ => ⟨S800000x1, .f32⟩
  | .hbm, ⟨61, _⟩ => ⟨S800000x1, .f32⟩
  | .hbm, ⟨62, _⟩ => ⟨S800000x1, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S800000x1, .f32⟩
  | .hbm, ⟨69, _⟩ => ⟨S800000x1, .f32⟩
  | .hbm, ⟨70, _⟩ => ⟨S800000x1, .f32⟩
  | .hbm, ⟨71, _⟩ => ⟨S800000x4, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S1x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S1x128, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S800000x1, .f32⟩
  | .hbm, ⟨94, _⟩ => ⟨S1x1, .f32⟩
  | .hbm, ⟨95, _⟩ => ⟨S800000x1, .f32⟩
  | .hbm, ⟨96, _⟩ => ⟨S800000x1, .f32⟩
  | .hbm, ⟨97, _⟩ => ⟨S_, .f32⟩
  | .hbm, ⟨98, _⟩ => ⟨S50000x1, .f32⟩
  | .hbm, ⟨99, _⟩ => ⟨S800000x1, .i32⟩
  | .hbm, ⟨100, _⟩ => ⟨S50000x1, .f32⟩
  | .hbm, ⟨101, _⟩ => ⟨S_, .f32⟩
  | .hbm, ⟨102, _⟩ => ⟨S800000x1, .f32⟩
  | .hbm, ⟨103, _⟩ => ⟨S_, .f32⟩
  | .hbm, ⟨104, _⟩ => ⟨S50000x1, .f32⟩
  | .hbm, ⟨105, _⟩ => ⟨S800000x1, .i32⟩
  | .hbm, ⟨106, _⟩ => ⟨S50000x1, .f32⟩
  | .hbm, ⟨107, _⟩ => ⟨S_, .f32⟩
  | .hbm, ⟨108, _⟩ => ⟨S50000x1, .f32⟩
  | .hbm, ⟨109, _⟩ => ⟨S50000x1, .f32⟩
  | .hbm, ⟨110, _⟩ => ⟨S50000x1, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_cst_8 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_9 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  concatenates_S50000x1_S50000x1_S50000x2_d1 : Shape.Concatenates [S50000x1, S50000x1] S50000x2 1
  bcast_S_S50000x2 : S_.BroadcastsInDim S50000x2 (![] : Fin 0 → Fin S50000x2.rank)
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_0 : S800000x2.Slices ![0, 0] S800000x1
  slices_S800000x2_S800000x1_0_1 : S800000x2.Slices ![0, 1] S800000x1
  concatenates_S800000x1_S800000x1_S800000x1_S800000x1_S800000x4_d1 : Shape.Concatenates [S800000x1, S800000x1, S800000x1, S800000x1] S800000x4 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S50000x1 : S_.BroadcastsInDim S50000x1 (![] : Fin 0 → Fin S50000x1.rank)
  bcast_S_S800000x1 : S_.BroadcastsInDim S800000x1 (![] : Fin 0 → Fin S800000x1.rank)
  gather_S50000x2_S800000x1_S800000x2_1_0_n_n_0_1_12_wf : GatherDims.WF S50000x2 S800000x1 S800000x2 [1] [0] [] [0] [] 1 ![1, 2]
  gather_S50000x1_S800000x1_S800000x1_1_0_n_n_0_1_11_wf : GatherDims.WF S50000x1 S800000x1 S800000x1 [1] [0] [] [0] [] 1 ![1, 1]
  dot_S800000x4_S4x128_S800000x128_1_0_0_1_n_n_wf : DotDims.WF S800000x4 S4x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S800000x4_S4x128_S800000x128_1_0_0_1_n_n : DotDims S800000x4 S4x128 S800000x128 where
  lhsContracting := [1]
  rhsContracting := [0]
  lhsNonContracting := [0]
  rhsNonContracting := [1]
  lhsBatch := []
  rhsBatch := []
  wf := dot_S800000x4_S4x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KBitsHost.lean ====
/-
  The host lines around the region, at any float instance.

  The region is entered after the four gathers of the endpoint positions and angles, the two subtractions, the joining of
  displacement, angle difference and source angle into four columns, the zero padding from 800000 to 800768 rows, and the
  rounding of three weight matrices. After it come the slice back to 800000 rows, the two segment sums over the
  destinations, the clamp of the counts at one and the quotient. Each of these lines writes only its own result buffer:
  none writes an argument array, and the later lines write no array the region stages.
-/
import proofs.«152819_j28269474742524_1_alg».proof.Proof.Gen.Kernel.Launch
import Idealize.ShloMosaic.Lib.Pipeline.FrameSuffix

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg)

variable {F : FTy → Type} [FloatOps F]

variable (m : (ℓ : Loc nD τ sig) → Buf (Elt F) ℓ)

/-! ## The contents the region finds -/

/-- Core c's buffer contents when the region is entered: the launch memory after the lines before the region. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it: it reduces to the region continued by
    the later lines, entered at V. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The lines after the region -/

/-- They touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 400000 in
/-- They write no array the region stages: each writes its own result buffer, which is none of the ten. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no line -/

/-- No line before the region writes the buffer asked about: one inequality of references per line. -/
local macro "earlier_lines_write_elsewhere" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.nary_writes, StableHlo.reshape_writes,
    StableHlo.binaryIndexed_writes, Finset.mem_singleton]
  repeat' apply And.intro
  all_goals exact StableHlo.devRef_ne_of_ne (by decide)))

/-- No line after the region writes the buffer asked about. -/
local macro "later_lines_write_elsewhere" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.nary_writes, StableHlo.reshape_writes,
    StableHlo.binaryIndexed_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) := by
  earlier_lines_write_elsewhere
/-- The region finds argument 1 as launched. -/
theorem V_main_arg1 (c : Dev nD) : V m c main_arg1 = m ((c : Thread nD τ).loc main_arg1) := by
  earlier_lines_write_elsewhere
/-- The region finds argument 2 as launched. -/
theorem V_main_arg2 (c : Dev nD) : V m c main_arg2 = m ((c : Thread nD τ).loc main_arg2) := by
  earlier_lines_write_elsewhere
/-- The region finds argument 3 as launched. -/
theorem V_main_arg3 (c : Dev nD) : V m c main_arg3 = m ((c : Thread nD τ).loc main_arg3) := by
  earlier_lines_write_elsewhere
/-- The region finds argument 4 as launched. -/
theorem V_main_arg4 (c : Dev nD) : V m c main_arg4 = m ((c : Thread nD τ).loc main_arg4) := by
  earlier_lines_write_elsewhere
/-- The region finds argument 5 as launched. -/
theorem V_main_arg5 (c : Dev nD) : V m c main_arg5 = m ((c : Thread nD τ).loc main_arg5) := by
  earlier_lines_write_elsewhere
/-- The region finds argument 6 as launched. -/
theorem V_main_arg6 (c : Dev nD) : V m c main_arg6 = m ((c : Thread nD τ).loc main_arg6) := by
  earlier_lines_write_elsewhere
/-- The region finds argument 7 as launched. -/
theorem V_main_arg7 (c : Dev nD) : V m c main_arg7 = m ((c : Thread nD τ).loc main_arg7) := by
  earlier_lines_write_elsewhere
/-- The region finds argument 8 as launched. -/
theorem V_main_arg8 (c : Dev nD) : V m c main_arg8 = m ((c : Thread nD τ).loc main_arg8) := by
  earlier_lines_write_elsewhere
/-- The region finds argument 9 as launched. -/
theorem V_main_arg9 (c : Dev nD) : V m c main_arg9 = m ((c : Thread nD τ).loc main_arg9) := by
  earlier_lines_write_elsewhere
/-- The region finds argument 10 as launched. -/
theorem V_main_arg10 (c : Dev nD) : V m c main_arg10 = m ((c : Thread nD τ).loc main_arg10) := by
  earlier_lines_write_elsewhere
/-- The region finds argument 11 as launched. -/
theorem V_main_arg11 (c : Dev nD) : V m c main_arg11 = m ((c : Thread nD τ).loc main_arg11) := by
  earlier_lines_write_elsewhere
/-- The region finds argument 12 as launched. -/
theorem V_main_arg12 (c : Dev nD) : V m c main_arg12 = m ((c : Thread nD τ).loc main_arg12) := by
  earlier_lines_write_elsewhere

/-- The velocity's buffer is written before the region and by no later line. -/
theorem tail_keeps_main_v4 : ∀ op ∈ List.flatten [(hostOps1 : List (HloOp τ sig (Elt F)))], Proc.devRef .tc main_v4 ∉ op.writes := by
  later_lines_write_elsewhere
theorem tail_keeps_main_arg0 : ∀ op ∈ List.flatten [(hostOps1 : List (HloOp τ sig (Elt F)))], Proc.devRef .tc main_arg0 ∉ op.writes := by
  later_lines_write_elsewhere
theorem tail_keeps_main_arg1 : ∀ op ∈ List.flatten [(hostOps1 : List (HloOp τ sig (Elt F)))], Proc.devRef .tc main_arg1 ∉ op.writes := by
  later_lines_write_elsewhere
theorem tail_keeps_main_arg2 : ∀ op ∈ List.flatten [(hostOps1 : List (HloOp τ sig (Elt F)))], Proc.devRef .tc main_arg2 ∉ op.writes := by
  later_lines_write_elsewhere
theorem tail_keeps_main_arg5 : ∀ op ∈ List.flatten [(hostOps1 : List (HloOp τ sig (Elt F)))], Proc.devRef .tc main_arg5 ∉ op.writes := by
  later_lines_write_elsewhere
theorem tail_keeps_main_arg7 : ∀ op ∈ List.flatten [(hostOps1 : List (HloOp τ sig (Elt F)))], Proc.devRef .tc main_arg7 ∉ op.writes := by
  later_lines_write_elsewhere
theorem tail_keeps_main_arg9 : ∀ op ∈ List.flatten [(hostOps1 : List (HloOp τ sig (Elt F)))], Proc.devRef .tc main_arg9 ∉ op.writes := by
  later_lines_write_elsewhere
theorem tail_keeps_main_arg11 : ∀ op ∈ List.flatten [(hostOps1 : List (HloOp τ sig (Elt F)))], Proc.devRef .tc main_arg11 ∉ op.writes := by
  later_lines_write_elsewhere
theorem tail_keeps_main_arg12 : ∀ op ∈ List.flatten [(hostOps1 : List (HloOp τ sig (Elt F)))], Proc.devRef .tc main_arg12 ∉ op.writes := by
  later_lines_write_elsewhere

end Cert.Kernel.Region

end
-- ==== Proof.KBitsBody.lean ====
/-
  The kernel body at one grid point, at any float instance, and the proof data of the pipeline.

  The body reads its nine input buffers whole (the block of 2048 feature rows, the 4 x 128 weights and their bias, two
  128 x 128 weight matrices with their biases, the 128 x 1 weights and their bias), computes one value per row, and stores
  the 2048 x 1 result over the whole of its output buffer; the load of the output buffer that precedes the store feeds
  nothing. So after the body every input buffer holds what it held, and the output buffer holds the stored block, a
  function of the nine inputs alone. At point t the inputs are the blocks of their arrays as the region found them.
-/
import proofs.«152819_j28269474742524_1_alg».proof.Proof.KBitsHost
import proofs.«152819_j28269474742524_1_alg».proof.Proof.Gen.Kernel.Skeleton
import proofs.«152819_j28269474742524_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every one is of a whole buffer -/

abbrev rFeat : Rect S2048x4 := Rect.unit (s := S2048x4) ![0, 0] S2048x4.size inb_S2048x4_S2048x4_0_0
abbrev rW0 : Rect S4x128 := Rect.unit (s := S4x128) ![0, 0] S4x128.size inb_S4x128_S4x128_0_0
abbrev rBias : Rect S128 := Rect.unit (s := S128) ![0] S128.size inb_S128_S128_0
abbrev rW : Rect S128x128 := Rect.unit (s := S128x128) ![0, 0] S128x128.size inb_S128x128_S128x128_0_0
abbrev rW3 : Rect S128x1 := Rect.unit (s := S128x1) ![0, 0] S128x1.size inb_S128x1_S128x1_0_0
abbrev rB3 : Rect S1 := Rect.unit (s := S1) ![0] S1.size inb_S1_S1_0
abbrev rOut : Rect S2048x1 := Rect.unit (s := S2048x1) ![0, 0] S2048x1.size inb_S2048x1_S2048x1_0_0

/-! ## What the body leaves in the output buffer -/

/-- The output buffer after the body, from the nine input buffers' contents: its one store, of the last three layers over
    the first layer's hidden block. -/
def outBlock (x0 : Vec F S2048x4 .f32) (x1 : Vec F S4x128 .f32) (x2 : Vec F S128 .f32) (x3 : Vec F S128x128 .bf16) (x4 : Vec F S128 .f32) (x5 : Vec F S128x128 .bf16) (x6 : Vec F S128 .f32) (x7 : Vec F S128x1 .bf16) (x8 : Vec F S1 .f32) : Vec F S2048x1 .f32 :=
  View.canon [⟨rOut, k0_pay1 (k0_pay2 (View.ld x0 rFeat) (View.ld x1 rW0) (View.ld x2 rBias) (View.ld x3 rW)) (View.ld x4 rBias) (View.ld x5 rW) (View.ld x6 rBias) (View.ld x7 rW3) (View.ld x8 rB3)⟩]

/-- The one store covers the buffer. -/
theorem cover_out (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 4000000 in
/-- On whole buffers, the inputs' at contents x0 … x8 and the output's at anything, the body runs to a continuation that
    holds the inputs' as they were and the output's at the stored block. -/
theorem sound_kernel (c : Dev nD) (E : Set ℕ) (i : grid0.Coords) (arg1 : Memref sig .tc .vmem S2048x4 .f32) (harg1 : arg1.IsWhole) (arg2 : Memref sig .tc .vmem S4x128 .f32) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x1 .bf16) (harg8 : arg8.IsWhole) (arg9 : Memref sig .tc .vmem S1 .f32) (harg9 : arg9.IsWhole) (arg10 : Memref sig .tc .vmem S2048x1 .f32) (harg10 : arg10.IsWhole)
    (x0 : Vec F S2048x4 .f32) (x1 : Vec F S4x128 .f32) (x2 : Vec F S128 .f32) (x3 : Vec F S128x128 .bf16) (x4 : Vec F S128 .f32) (x5 : Vec F S128x128 .bf16) (x6 : Vec F S128 .f32) (x7 : Vec F S128x1 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The pipeline's proof data -/

/-- The proof data of the pipeline on core c: the arrays as the region finds them; after the body at point t each input's
    buffer at its block and the output's at the stored block of the input blocks; the region's standing invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.KBitsRun.lean ====
/-
  The run of the whole program, at any float instance, and its frame.

  The program is host lines, the region, host lines. The region runs its 391 grid points under the pipeline's proof data;
  the lines after it touch only the region's arrays and the buffers that bypass it, allocate nothing and write no staged
  array. So every weakly fair execution terminates without a fault, each staged array ends at what the proof data compute
  for it, and every other buffer at what the later lines leave. The five argument arrays the region stages (the 4 x 128
  weights and the four biases) are inputs of the region and end as it found them, which is as launched; the other eight
  are written by no line at all.
-/
import proofs.«152819_j28269474742524_1_alg».proof.Proof.KBitsBody
import Idealize.ShloMosaic.Lib.Pipeline.FrameSuffix

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a buffer holds after the later lines, from the region's exit contents. -/
abbrev finalAt (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters, every weakly fair execution of the program terminates; every final state has each
    staged array at what the proof data compute and every other unscoped buffer at what the later lines leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Argument 0 bypasses the region and no line writes it: it ends as launched. -/
theorem final_main_arg0 (c : Dev nD) : finalAt m c main_arg0 = m ((c : Thread nD τ).loc main_arg0) := by
  unfold finalAt Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c
/-- Argument 1 bypasses the region and no line writes it: it ends as launched. -/
theorem final_main_arg1 (c : Dev nD) : finalAt m c main_arg1 = m ((c : Thread nD τ).loc main_arg1) := by
  unfold finalAt Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- Argument 2 bypasses the region and no line writes it: it ends as launched. -/
theorem final_main_arg2 (c : Dev nD) : finalAt m c main_arg2 = m ((c : Thread nD τ).loc main_arg2) := by
  unfold finalAt Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- Argument 5 bypasses the region and no line writes it: it ends as launched. -/
theorem final_main_arg5 (c : Dev nD) : finalAt m c main_arg5 = m ((c : Thread nD τ).loc main_arg5) := by
  unfold finalAt Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c
/-- Argument 7 bypasses the region and no line writes it: it ends as launched. -/
theorem final_main_arg7 (c : Dev nD) : finalAt m c main_arg7 = m ((c : Thread nD τ).loc main_arg7) := by
  unfold finalAt Pipeline.afterTail₀
  rw [StableHlo.after_of_forall_not_mem (b := Proc.devRef .tc main_arg7) _ _ tail_keeps_main_arg7,
    Pipeline.withArrays_of_ne _ c (V0 m c) _ main_arg7 (by exact (by decide : ∀ w, Pipeline.arrRef spec0 w ≠ main_arg7))]
  exact V_main_arg7 m c
/-- Argument 9 bypasses the region and no line writes it: it ends as launched. -/
theorem final_main_arg9 (c : Dev nD) : finalAt m c main_arg9 = m ((c : Thread nD τ).loc main_arg9) := by
  unfold finalAt Pipeline.afterTail₀
  rw [StableHlo.after_of_forall_not_mem (b := Proc.devRef .tc main_arg9) _ _ tail_keeps_main_arg9,
    Pipeline.withArrays_of_ne _ c (V0 m c) _ main_arg9 (by exact (by decide : ∀ w, Pipeline.arrRef spec0 w ≠ main_arg9))]
  exact V_main_arg9 m c
/-- Argument 11 bypasses the region and no line writes it: it ends as launched. -/
theorem final_main_arg11 (c : Dev nD) : finalAt m c main_arg11 = m ((c : Thread nD τ).loc main_arg11) := by
  unfold finalAt Pipeline.afterTail₀
  rw [StableHlo.after_of_forall_not_mem (b := Proc.devRef .tc main_arg11) _ _ tail_keeps_main_arg11,
    Pipeline.withArrays_of_ne _ c (V0 m c) _ main_arg11 (by exact (by decide : ∀ w, Pipeline.arrRef spec0 w ≠ main_arg11))]
  exact V_main_arg11 m c
/-- Argument 12 bypasses the region and no line writes it: it ends as launched. -/
theorem final_main_arg12 (c : Dev nD) : finalAt m c main_arg12 = m ((c : Thread nD τ).loc main_arg12) := by
  unfold finalAt Pipeline.afterTail₀
  rw [StableHlo.after_of_forall_not_mem (b := Proc.devRef .tc main_arg12) _ _ tail_keeps_main_arg12,
    Pipeline.withArrays_of_ne _ c (V0 m c) _ main_arg12 (by exact (by decide : ∀ w, Pipeline.arrRef spec0 w ≠ main_arg12))]
  exact V_main_arg12 m c

/-- The velocity's buffer ends at what the lines before the region left in it. -/
theorem final_main_v4 (c : Dev nD) : finalAt m c main_v4 = V m c main_v4 := by
  unfold finalAt Pipeline.afterTail₀
  rw [StableHlo.after_of_forall_not_mem (b := Proc.devRef .tc main_v4) _ _ tail_keeps_main_v4,
    Pipeline.withArrays_of_ne _ c (V0 m c) _ main_v4 (by exact (by decide : ∀ w, Pipeline.arrRef spec0 w ≠ main_v4))]

/-- The thirteen argument arrays, read off the run's post: unchanged. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (final_main_arg0 m c),
    ((h c).2 main_arg1 (Pipeline.mem_restRefs_of main_arg1 (by decide) (by decide))).trans (final_main_arg1 m c),
    ((h c).2 main_arg2 (Pipeline.mem_restRefs_of main_arg2 (by decide) (by decide))).trans (final_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).2 main_arg5 (Pipeline.mem_restRefs_of main_arg5 (by decide) (by decide))).trans (final_main_arg5 m c),
    ((h c).1 4).trans (((dats m 0 c).arrAt_in 4 rfl _).trans ((A_eq m c 4).trans (V_main_arg6 m c))),
    ((h c).2 main_arg7 (Pipeline.mem_restRefs_of main_arg7 (by decide) (by decide))).trans (final_main_arg7 m c),
    ((h c).1 6).trans (((dats m 0 c).arrAt_in 6 rfl _).trans ((A_eq m c 6).trans (V_main_arg8 m c))),
    ((h c).2 main_arg9 (Pipeline.mem_restRefs_of main_arg9 (by decide) (by decide))).trans (final_main_arg9 m c),
    ((h c).1 8).trans (((dats m 0 c).arrAt_in 8 rfl _).trans ((A_eq m c 8).trans (V_main_arg10 m c))),
    ((h c).2 main_arg11 (Pipeline.mem_restRefs_of main_arg11 (by decide) (by decide))).trans (final_main_arg11 m c),
    ((h c).2 main_arg12 (Pipeline.mem_restRefs_of main_arg12 (by decide) (by decide))).trans (final_main_arg12 m c)⟩

/-- The frame: the program terminates without a fault and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m r h c) (run_main m ρ)

end Cert.Kernel.Region

end
-- ==== Proof.KIdealHost.lean ====
/-
  The host lines around the region, at any float instance.

  The region is entered after the four gathers of the endpoint positions and angles, the two subtractions, the joining of
  displacement, angle difference and source angle into four columns, the zero padding from 800000 to 800768 rows, and the
  rounding of three weight matrices. After it come the slice back to 800000 rows, the two segment sums over the
  destinations, the clamp of the counts at one and the quotient. Each of these lines writes only its own result buffer:
  none writes an argument array, and the later lines write no array the region stages.
-/
import proofs.«152819_j28269474742524_1_alg».proof.Proof.Gen.KernelIdeal.Launch
import Idealize.ShloMosaic.Lib.Pipeline.FrameSuffix

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg)

variable {F : FTy → Type} [FloatOps F]

variable (m : (ℓ : Loc nD τ sig) → Buf (Elt F) ℓ)

/-! ## The contents the region finds -/

/-- Core c's buffer contents when the region is entered: the launch memory after the lines before the region. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, and the lines after it: it reduces to the region continued by
    the later lines, entered at V. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The lines after the region -/

/-- They touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 400000 in
/-- They write no array the region stages: each writes its own result buffer, which is none of the ten. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no line -/

/-- No line before the region writes the buffer asked about: one inequality of references per line. -/
local macro "earlier_lines_write_elsewhere" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.nary_writes, StableHlo.reshape_writes,
    StableHlo.binaryIndexed_writes, Finset.mem_singleton]
  repeat' apply And.intro
  all_goals exact StableHlo.devRef_ne_of_ne (by decide)))

/-- No line after the region writes the buffer asked about. -/
local macro "later_lines_write_elsewhere" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.nary_writes, StableHlo.reshape_writes,
    StableHlo.binaryIndexed_writes, Finset.mem_singleton]
  repeat' apply And.intro
  all_goals exact StableHlo.devRef_ne_of_ne (by decide)))

/-- The region finds argument 0 as launched. -/
theorem V_main_arg0 (c : Dev nD) : V m c main_arg0 = m ((c : Thread nD τ).loc main_arg0) := by
  earlier_lines_write_elsewhere
/-- The region finds argument 1 as launched. -/
theorem V_main_arg1 (c : Dev nD) : V m c main_arg1 = m ((c : Thread nD τ).loc main_arg1) := by
  earlier_lines_write_elsewhere
/-- The region finds argument 2 as launched. -/
theorem V_main_arg2 (c : Dev nD) : V m c main_arg2 = m ((c : Thread nD τ).loc main_arg2) := by
  earlier_lines_write_elsewhere
/-- The region finds argument 3 as launched. -/
theorem V_main_arg3 (c : Dev nD) : V m c main_arg3 = m ((c : Thread nD τ).loc main_arg3) := by
  earlier_lines_write_elsewhere
/-- The region finds argument 4 as launched. -/
theorem V_main_arg4 (c : Dev nD) : V m c main_arg4 = m ((c : Thread nD τ).loc main_arg4) := by
  earlier_lines_write_elsewhere
/-- The region finds argument 5 as launched. -/
theorem V_main_arg5 (c : Dev nD) : V m c main_arg5 = m ((c : Thread nD τ).loc main_arg5) := by
  earlier_lines_write_elsewhere
/-- The region finds argument 6 as launched. -/
theorem V_main_arg6 (c : Dev nD) : V m c main_arg6 = m ((c : Thread nD τ).loc main_arg6) := by
  earlier_lines_write_elsewhere
/-- The region finds argument 7 as launched. -/
theorem V_main_arg7 (c : Dev nD) : V m c main_arg7 = m ((c : Thread nD τ).loc main_arg7) := by
  earlier_lines_write_elsewhere
/-- The region finds argument 8 as launched. -/
theorem V_main_arg8 (c : Dev nD) : V m c main_arg8 = m ((c : Thread nD τ).loc main_arg8) := by
  earlier_lines_write_elsewhere
/-- The region finds argument 9 as launched. -/
theorem V_main_arg9 (c : Dev nD) : V m c main_arg9 = m ((c : Thread nD τ).loc main_arg9) := by
  earlier_lines_write_elsewhere
/-- The region finds argument 10 as launched. -/
theorem V_main_arg10 (c : Dev nD) : V m c main_arg10 = m ((c : Thread nD τ).loc main_arg10) := by
  earlier_lines_write_elsewhere
/-- The region finds argument 11 as launched. -/
theorem V_main_arg11 (c : Dev nD) : V m c main_arg11 = m ((c : Thread nD τ).loc main_arg11) := by
  earlier_lines_write_elsewhere
/-- The region finds argument 12 as launched. -/
theorem V_main_arg12 (c : Dev nD) : V m c main_arg12 = m ((c : Thread nD τ).loc main_arg12) := by
  earlier_lines_write_elsewhere

/-- The velocity's buffer is written before the region and by no later line. -/
theorem tail_keeps_main_v4 : ∀ op ∈ List.flatten [(hostOps1 : List (HloOp τ sig (Elt F)))], Proc.devRef .tc main_v4 ∉ op.writes := by
  later_lines_write_elsewhere
theorem tail_keeps_main_arg0 : ∀ op ∈ List.flatten [(hostOps1 : List (HloOp τ sig (Elt F)))], Proc.devRef .tc main_arg0 ∉ op.writes := by
  later_lines_write_elsewhere
theorem tail_keeps_main_arg1 : ∀ op ∈ List.flatten [(hostOps1 : List (HloOp τ sig (Elt F)))], Proc.devRef .tc main_arg1 ∉ op.writes := by
  later_lines_write_elsewhere
theorem tail_keeps_main_arg2 : ∀ op ∈ List.flatten [(hostOps1 : List (HloOp τ sig (Elt F)))], Proc.devRef .tc main_arg2 ∉ op.writes := by
  later_lines_write_elsewhere
theorem tail_keeps_main_arg5 : ∀ op ∈ List.flatten [(hostOps1 : List (HloOp τ sig (Elt F)))], Proc.devRef .tc main_arg5 ∉ op.writes := by
  later_lines_write_elsewhere
theorem tail_keeps_main_arg7 : ∀ op ∈ List.flatten [(hostOps1 : List (HloOp τ sig (Elt F)))], Proc.devRef .tc main_arg7 ∉ op.writes := by
  later_lines_write_elsewhere
theorem tail_keeps_main_arg9 : ∀ op ∈ List.flatten [(hostOps1 : List (HloOp τ sig (Elt F)))], Proc.devRef .tc main_arg9 ∉ op.writes := by
  later_lines_write_elsewhere
theorem tail_keeps_main_arg11 : ∀ op ∈ List.flatten [(hostOps1 : List (HloOp τ sig (Elt F)))], Proc.devRef .tc main_arg11 ∉ op.writes := by
  later_lines_write_elsewhere
theorem tail_keeps_main_arg12 : ∀ op ∈ List.flatten [(hostOps1 : List (HloOp τ sig (Elt F)))], Proc.devRef .tc main_arg12 ∉ op.writes := by
  later_lines_write_elsewhere

end Cert.KernelIdeal.Region

end
-- ==== Proof.KIdealBody.lean ====
/-
  The kernel body at one grid point, at any float instance, and the proof data of the pipeline.

  The body reads its nine input buffers whole (the block of 2048 feature rows, the 4 x 128 weights and their bias, two
  128 x 128 weight matrices with their biases, the 128 x 1 weights and their bias), computes one value per row, and stores
  the 2048 x 1 result over the whole of its output buffer; the load of the output buffer that precedes the store feeds
  nothing. So after the body every input buffer holds what it held, and the output buffer holds the stored block, a
  function of the nine inputs alone. At point t the inputs are the blocks of their arrays as the region found them.
-/
import proofs.«152819_j28269474742524_1_alg».proof.Proof.KIdealHost
import proofs.«152819_j28269474742524_1_alg».proof.Proof.Gen.KernelIdeal.Skeleton
import proofs.«152819_j28269474742524_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every one is of a whole buffer -/

abbrev rFeat : Rect S2048x4 := Rect.unit (s := S2048x4) ![0, 0] S2048x4.size inb_S2048x4_S2048x4_0_0
abbrev rW0 : Rect S4x128 := Rect.unit (s := S4x128) ![0, 0] S4x128.size inb_S4x128_S4x128_0_0
abbrev rBias : Rect S128 := Rect.unit (s := S128) ![0] S128.size inb_S128_S128_0
abbrev rW : Rect S128x128 := Rect.unit (s := S128x128) ![0, 0] S128x128.size inb_S128x128_S128x128_0_0
abbrev rW3 : Rect S128x1 := Rect.unit (s := S128x1) ![0, 0] S128x1.size inb_S128x1_S128x1_0_0
abbrev rB3 : Rect S1 := Rect.unit (s := S1) ![0] S1.size inb_S1_S1_0
abbrev rOut : Rect S2048x1 := Rect.unit (s := S2048x1) ![0, 0] S2048x1.size inb_S2048x1_S2048x1_0_0

/-! ## What the body leaves in the output buffer -/

/-- The output buffer after the body, from the nine input buffers' contents: its one store, of the last three layers over
    the first layer's hidden block. -/
def outBlock (x0 : Vec F S2048x4 .f32) (x1 : Vec F S4x128 .f32) (x2 : Vec F S128 .f32) (x3 : Vec F S128x128 .bf16) (x4 : Vec F S128 .f32) (x5 : Vec F S128x128 .bf16) (x6 : Vec F S128 .f32) (x7 : Vec F S128x1 .bf16) (x8 : Vec F S1 .f32) : Vec F S2048x1 .f32 :=
  View.canon [⟨rOut, k0_pay1 (k0_pay2 (View.ld x0 rFeat) (View.ld x1 rW0) (View.ld x2 rBias) (View.ld x3 rW)) (View.ld x4 rBias) (View.ld x5 rW) (View.ld x6 rBias) (View.ld x7 rW3) (View.ld x8 rB3)⟩]

/-- The one store covers the buffer. -/
theorem cover_out (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body's triple -/

set_option maxHeartbeats 4000000 in
/-- On whole buffers, the inputs' at contents x0 … x8 and the output's at anything, the body runs to a continuation that
    holds the inputs' as they were and the output's at the stored block. -/
theorem sound_kernel (c : Dev nD) (E : Set ℕ) (i : grid0.Coords) (arg1 : Memref sig .tc .vmem S2048x4 .f32) (harg1 : arg1.IsWhole) (arg2 : Memref sig .tc .vmem S4x128 .f32) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128 .f32) (harg7 : arg7.IsWhole) (arg8 : Memref sig .tc .vmem S128x1 .bf16) (harg8 : arg8.IsWhole) (arg9 : Memref sig .tc .vmem S1 .f32) (harg9 : arg9.IsWhole) (arg10 : Memref sig .tc .vmem S2048x1 .f32) (harg10 : arg10.IsWhole)
    (x0 : Vec F S2048x4 .f32) (x1 : Vec F S4x128 .f32) (x2 : Vec F S128 .f32) (x3 : Vec F S128x128 .bf16) (x4 : Vec F S128 .f32) (x5 : Vec F S128x128 .bf16) (x6 : Vec F S128 .f32) (x7 : Vec F S128x1 .bf16) (x8 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

/-! ## The pipeline's proof data -/

/-- The proof data of the pipeline on core c: the arrays as the region finds them; after the body at point t each input's
    buffer at its block and the output's at the stored block of the input blocks; the region's standing invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KIdealRun.lean ====
/-
  The run of the whole program, at any float instance, and its frame.

  The program is host lines, the region, host lines. The region runs its 391 grid points under the pipeline's proof data;
  the lines after it touch only the region's arrays and the buffers that bypass it, allocate nothing and write no staged
  array. So every weakly fair execution terminates without a fault, each staged array ends at what the proof data compute
  for it, and every other buffer at what the later lines leave. The five argument arrays the region stages (the 4 x 128
  weights and the four biases) are inputs of the region and end as it found them, which is as launched; the other eight
  are written by no line at all.
-/
import proofs.«152819_j28269474742524_1_alg».proof.Proof.KIdealBody
import Idealize.ShloMosaic.Lib.Pipeline.FrameSuffix

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a buffer holds after the later lines, from the region's exit contents. -/
abbrev finalAt (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters, every weakly fair execution of the program terminates; every final state has each
    staged array at what the proof data compute and every other unscoped buffer at what the later lines leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Argument 0 bypasses the region and no line writes it: it ends as launched. -/
theorem final_main_arg0 (c : Dev nD) : finalAt m c main_arg0 = m ((c : Thread nD τ).loc main_arg0) := by
  unfold finalAt Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c
/-- Argument 1 bypasses the region and no line writes it: it ends as launched. -/
theorem final_main_arg1 (c : Dev nD) : finalAt m c main_arg1 = m ((c : Thread nD τ).loc main_arg1) := by
  unfold finalAt Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- Argument 2 bypasses the region and no line writes it: it ends as launched. -/
theorem final_main_arg2 (c : Dev nD) : finalAt m c main_arg2 = m ((c : Thread nD τ).loc main_arg2) := by
  unfold finalAt Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- Argument 5 bypasses the region and no line writes it: it ends as launched. -/
theorem final_main_arg5 (c : Dev nD) : finalAt m c main_arg5 = m ((c : Thread nD τ).loc main_arg5) := by
  unfold finalAt Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c
/-- Argument 7 bypasses the region and no line writes it: it ends as launched. -/
theorem final_main_arg7 (c : Dev nD) : finalAt m c main_arg7 = m ((c : Thread nD τ).loc main_arg7) := by
  unfold finalAt Pipeline.afterTail₀
  rw [StableHlo.after_of_forall_not_mem (b := Proc.devRef .tc main_arg7) _ _ tail_keeps_main_arg7,
    Pipeline.withArrays_of_ne _ c (V0 m c) _ main_arg7 (by exact (by decide : ∀ w, Pipeline.arrRef spec0 w ≠ main_arg7))]
  exact V_main_arg7 m c
/-- Argument 9 bypasses the region and no line writes it: it ends as launched. -/
theorem final_main_arg9 (c : Dev nD) : finalAt m c main_arg9 = m ((c : Thread nD τ).loc main_arg9) := by
  unfold finalAt Pipeline.afterTail₀
  rw [StableHlo.after_of_forall_not_mem (b := Proc.devRef .tc main_arg9) _ _ tail_keeps_main_arg9,
    Pipeline.withArrays_of_ne _ c (V0 m c) _ main_arg9 (by exact (by decide : ∀ w, Pipeline.arrRef spec0 w ≠ main_arg9))]
  exact V_main_arg9 m c
/-- Argument 11 bypasses the region and no line writes it: it ends as launched. -/
theorem final_main_arg11 (c : Dev nD) : finalAt m c main_arg11 = m ((c : Thread nD τ).loc main_arg11) := by
  unfold finalAt Pipeline.afterTail₀
  rw [StableHlo.after_of_forall_not_mem (b := Proc.devRef .tc main_arg11) _ _ tail_keeps_main_arg11,
    Pipeline.withArrays_of_ne _ c (V0 m c) _ main_arg11 (by exact (by decide : ∀ w, Pipeline.arrRef spec0 w ≠ main_arg11))]
  exact V_main_arg11 m c
/-- Argument 12 bypasses the region and no line writes it: it ends as launched. -/
theorem final_main_arg12 (c : Dev nD) : finalAt m c main_arg12 = m ((c : Thread nD τ).loc main_arg12) := by
  unfold finalAt Pipeline.afterTail₀
  rw [StableHlo.after_of_forall_not_mem (b := Proc.devRef .tc main_arg12) _ _ tail_keeps_main_arg12,
    Pipeline.withArrays_of_ne _ c (V0 m c) _ main_arg12 (by exact (by decide : ∀ w, Pipeline.arrRef spec0 w ≠ main_arg12))]
  exact V_main_arg12 m c

/-- The velocity's buffer ends at what the lines before the region left in it. -/
theorem final_main_v4 (c : Dev nD) : finalAt m c main_v4 = V m c main_v4 := by
  unfold finalAt Pipeline.afterTail₀
  rw [StableHlo.after_of_forall_not_mem (b := Proc.devRef .tc main_v4) _ _ tail_keeps_main_v4,
    Pipeline.withArrays_of_ne _ c (V0 m c) _ main_v4 (by exact (by decide : ∀ w, Pipeline.arrRef spec0 w ≠ main_v4))]

/-- The thirteen argument arrays, read off the run's post: unchanged. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (Pipeline.mem_restRefs_of main_arg0 (by decide) (by decide))).trans (final_main_arg0 m c),
    ((h c).2 main_arg1 (Pipeline.mem_restRefs_of main_arg1 (by decide) (by decide))).trans (final_main_arg1 m c),
    ((h c).2 main_arg2 (Pipeline.mem_restRefs_of main_arg2 (by decide) (by decide))).trans (final_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c))),
    ((h c).2 main_arg5 (Pipeline.mem_restRefs_of main_arg5 (by decide) (by decide))).trans (final_main_arg5 m c),
    ((h c).1 4).trans (((dats m 0 c).arrAt_in 4 rfl _).trans ((A_eq m c 4).trans (V_main_arg6 m c))),
    ((h c).2 main_arg7 (Pipeline.mem_restRefs_of main_arg7 (by decide) (by decide))).trans (final_main_arg7 m c),
    ((h c).1 6).trans (((dats m 0 c).arrAt_in 6 rfl _).trans ((A_eq m c 6).trans (V_main_arg8 m c))),
    ((h c).2 main_arg9 (Pipeline.mem_restRefs_of main_arg9 (by decide) (by decide))).trans (final_main_arg9 m c),
    ((h c).1 8).trans (((dats m 0 c).arrAt_in 8 rfl _).trans ((A_eq m c 8).trans (V_main_arg10 m c))),
    ((h c).2 main_arg11 (Pipeline.mem_restRefs_of main_arg11 (by decide) (by decide))).trans (final_main_arg11 m c),
    ((h c).2 main_arg12 (Pipeline.mem_restRefs_of main_arg12 (by decide) (by decide))).trans (final_main_arg12 m c)⟩

/-- The frame: the program terminates without a fault and leaves its thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m r h c) (run_main m ρ)

end Cert.KernelIdeal.Region

end
-- ==== Proof.KIdealTerms.lean ====
/-
  The buffers the host lines write, as functions of the arguments.

  Before the region: an endpoint index below zero counts from the end of the 50000 nodes; the displacement of an edge is
  its destination's position less its source's, the angle difference likewise, and the four feature columns are the
  displacement, the angle difference and the source's angle, padded below with 768 zero rows; three weight matrices are
  rounded. After the region: the first 800000 rows of the region's output are summed per destination node, as are ones to
  count each node's in-edges, and the sum is divided by the count clamped below at one.
-/
import proofs.«152819_j28269474742524_1_alg».proof.Proof.KIdealRun
import Idealize.ShloMosaic.Lib.StableHlo.Run

set_option maxRecDepth 16384

noncomputable section

namespace Cert.KernelIdeal.HostTerms

open Cert.KernelIdeal Cert.KernelIdeal.Gen Cert.KernelIdeal.Region
open Idealize.ShloMosaic Idealize.ShloMosaic.TcCoe Idealize.ShloMosaic.StableHlo
open Idealize.SL.Sem
open Idealize.ShloMosaic.Pipeline (Dat Cfg Window)

variable {F : FTy → Type} [FloatOps F]

/-- An endpoint index as a column: a negative index counts from the end of the 50000 nodes. -/
def endpoint (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Each edge's displacement: its destination's position less its source's. -/
def displacement (x : (⟨S50000x2, .f32⟩ : BufTy).Contents (Elt F)) (src dst : (⟨S800000, .i32⟩ : BufTy).Contents (Elt F)) :
    (⟨S800000x2, .f32⟩ : BufTy).Contents (Elt F) :=
  subf (Host.gather gather_S50000x2_S800000x1_S800000x2_1_0_n_n_0_1_12 x (endpoint dst))
    (Host.gather gather_S50000x2_S800000x1_S800000x2_1_0_n_n_0_1_12 x (endpoint src))

/-- Each edge's source angle. -/
def sourceAngle (θ : (⟨S50000x1, .f32⟩ : BufTy).Contents (Elt F)) (src : (⟨S800000, .i32⟩ : BufTy).Contents (Elt F)) :
    (⟨S800000x1, .f32⟩ : BufTy).Contents (Elt F) :=
  Host.gather gather_S50000x1_S800000x1_S800000x1_1_0_n_n_0_1_11 θ (endpoint src)

/-- Each edge's angle difference: its destination's angle less its source's. -/
def angleDifference (θ : (⟨S50000x1, .f32⟩ : BufTy).Contents (Elt F)) (src dst : (⟨S800000, .i32⟩ : BufTy).Contents (Elt F)) :
    (⟨S800000x1, .f32⟩ : BufTy).Contents (Elt F) :=
  subf (Host.gather gather_S50000x1_S800000x1_S800000x1_1_0_n_n_0_1_11 θ (endpoint dst)) (sourceAngle θ src)

/-- The four feature columns of the 800000 edges. -/
def features (x : (⟨S50000x2, .f32⟩ : BufTy).Contents (Elt F)) (θ : (⟨S50000x1, .f32⟩ : BufTy).Contents (Elt F))
    (src dst : (⟨S800000, .i32⟩ : BufTy).Contents (Elt F)) : (⟨S800000x4, .f32⟩ : BufTy).Contents (Elt F) :=
  concatenate S800000x4 1 [⟨S800000x2, displacement x src dst⟩, ⟨S800000x1, angleDifference θ src dst⟩, ⟨S800000x1, sourceAngle θ src⟩]
    concatenates_S800000x2_S800000x1_S800000x1_S800000x4_d1

/-- The features padded below with 768 rows of the converted integer zero. -/
def paddedFeatures (x : (⟨S50000x2, .f32⟩ : BufTy).Contents (Elt F)) (θ : (⟨S50000x1, .f32⟩ : BufTy).Contents (Elt F))
    (src dst : (⟨S800000, .i32⟩ : BufTy).Contents (Elt F)) : (⟨S800768x4, .f32⟩ : BufTy).Contents (Elt F) :=
  pad S800768x4 ![0, 0] ![768, 0] ![0, 0] (features x θ src dst) (sitofp .f32 (constantI S_ 32 0#32))
    pads_S800000x4_S800768x4_07680_000 h_S_

/-- The node velocities: the speed times (cos, sin) of each node's angle. -/
def velocity (θ : (⟨S50000x1, .f32⟩ : BufTy).Contents (Elt F)) (v : (⟨S_, .f32⟩ : BufTy).Contents (Elt F)) :
    (⟨S50000x2, .f32⟩ : BufTy).Contents (Elt F) :=
  mulf (broadcastInDim S50000x2 ![] bcast_S_S50000x2 v)
    (concatenate S50000x2 1 [⟨S50000x1, Host.cos θ⟩, ⟨S50000x1, Host.sin θ⟩] concatenates_S50000x1_S50000x1_S50000x2_d1)

/-- The mean message per destination node: the messages summed per destination over the count of its in-edges clamped
    below at one. -/
def torque (msgs : (⟨S800000x1, .f32⟩ : BufTy).Contents (Elt F)) (dst : (⟨S800000, .i32⟩ : BufTy).Contents (Elt F)) :
    (⟨S50000x1, .f32⟩ : BufTy).Contents (Elt F) :=
  Host.divf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 dst) msgs)
    (maximumf
      (Host.scatterAdd scatter_S50000x1_S800000x1_S800000x1_1_0_0_1
        (broadcastInDim S50000x1 ![] bcast_S_S50000x1 (constant S_ .f32 0x00000000#32))
        (broadcastInDim S800000x1 ![0] bcast_S800000_S800000x1_0 dst)
        (broadcastInDim S800000x1 ![] bcast_S_S800000x1 (constant S_ .f32 0x3F800000#32)))
      (broadcastInDim S50000x1 ![] bcast_S_S50000x1 (constant S_ .f32 0x3F800000#32)))

variable (m : (ℓ : Loc nD τ sig) → Buf (Elt F) ℓ)

/-- The lines before the region, flattened to one list of operations. -/
local macro "open_entry" : tactic => `(tactic| (
  dsimp only [V, V0]
  simp only [hostOps0, hostOps0_1, hostOps0_2, List.flatten_cons, List.flatten_nil, List.append_nil, List.cons_append,
    List.nil_append]))

/-- A line with three operands writes, at its result, its function of the three operands' contents, each read at its own
    buffer. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result's buffer left out of the index, for use as a rewrite rule. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- Read a buffer after a list of lines, in one pass: at the line that writes it, the line's function of its operands'
    contents; at any other line, what was there before. -/
local macro "read_lines" : tactic => `(tactic| (
  simp (disch := decide) only [after_cons, after_nil,
    nullary_result', unary_result', binary_result', ternary_result', nary3_result',
    nullary_result_ne', unary_result_ne', binary_result_ne', ternary_result_ne', nary_result_ne']))

/-- Running two lists of lines one after the other. -/
theorem after_append (l₁ l₂ : List (HloOp τ sig (Elt F))) (G : Valuation τ sig (Elt F)) :
    after (l₁ ++ l₂) G = after l₂ (after l₁ G) := by
  induction l₁ generalizing G with
  | nil => rfl
  | cons op l ih => exact ih _

/-- The lines before the region up to the two differences, -/
abbrev earlyLines : List (HloOp τ sig (Elt F)) := hostOps0.take 43
/-- and the rest: the join, the padding and the rounding of the weights. -/
abbrev lateLines : List (HloOp τ sig (Elt F)) := hostOps0.drop 43 ++ (hostOps0_1 ++ hostOps0_2)

theorem entry_split : List.flatten [(hostOps0 : List (HloOp τ sig (Elt F))), hostOps0_1, hostOps0_2] = earlyLines ++ lateLines := by
  show _ = hostOps0.take 43 ++ (hostOps0.drop 43 ++ (hostOps0_1 ++ hostOps0_2))
  rw [← List.append_assoc, List.take_append_drop]
  simp only [List.flatten_cons, List.flatten_nil, List.append_nil]

/-- After the early lines the displacement's buffer holds the displacements of the launched positions and endpoints. -/
theorem early_v33 (c : Dev nD) :
    (after earlyLines (fun b => m (c, b)) (Proc.devRef .tc main_v33) : (⟨S800000x2, .f32⟩ : BufTy).Contents (Elt F))
      = displacement (m ((c : Thread nD τ).loc main_arg0)) (m ((c : Thread nD τ).loc main_arg11)) (m ((c : Thread nD τ).loc main_arg12)) := by
  unfold displacement endpoint
  dsimp only [earlyLines, hostOps0, List.take]
  read_lines
  try rfl

/-- Likewise the angle differences, -/
theorem early_v34 (c : Dev nD) :
    (after earlyLines (fun b => m (c, b)) (Proc.devRef .tc main_v34) : (⟨S800000x1, .f32⟩ : BufTy).Contents (Elt F))
      = angleDifference (m ((c : Thread nD τ).loc main_arg1)) (m ((c : Thread nD τ).loc main_arg11)) (m ((c : Thread nD τ).loc main_arg12)) := by
  unfold angleDifference sourceAngle endpoint
  dsimp only [earlyLines, hostOps0, List.take]
  read_lines
  try rfl

/-- and the source angles. -/
theorem early_v25 (c : Dev nD) :
    (after earlyLines (fun b => m (c, b)) (Proc.devRef .tc main_v25) : (⟨S800000x1, .f32⟩ : BufTy).Contents (Elt F))
      = sourceAngle (m ((c : Thread nD τ).loc main_arg1)) (m ((c : Thread nD τ).loc main_arg11)) := by
  unfold sourceAngle endpoint
  dsimp only [earlyLines, hostOps0, List.take]
  read_lines
  try rfl

/-- The late lines leave in the feature window's array the join of three of the early buffers, padded. -/
theorem late_v36 (W : Valuation τ sig (Elt F)) :
    (after lateLines W (Proc.devRef .tc main_v36) : (⟨S800768x4, .f32⟩ : BufTy).Contents (Elt F))
      = pad S800768x4 ![0, 0] ![768, 0] ![0, 0]
          (concatenate S800000x4 1 [⟨S800000x2, W (Proc.devRef .tc main_v33)⟩, ⟨S800000x1, W (Proc.devRef .tc main_v34)⟩, ⟨S800000x1, W (Proc.devRef .tc main_v25)⟩]
            concatenates_S800000x2_S800000x1_S800000x1_S800000x4_d1)
          (sitofp .f32 (constantI S_ 32 0#32)) pads_S800000x4_S800768x4_07680_000 h_S_ := by
  dsimp only [lateLines, hostOps0, hostOps0_1, hostOps0_2, List.drop, List.cons_append, List.nil_append]
  read_lines
  try rfl

/-- The region finds the velocity's buffer at the velocities of the launched angles and speed. -/
theorem entry_v4 (c : Dev nD) :
    (V m c main_v4 : (⟨S50000x2, .f32⟩ : BufTy).Contents (Elt F))
      = velocity (m ((c : Thread nD τ).loc main_arg1)) (m ((c : Thread nD τ).loc main_arg2)) := by
  open_entry
  after_results
  rfl

/-- The region finds its feature window's array at the padded features of the launched positions, angles and endpoints. -/
theorem entry_v36 (c : Dev nD) :
    (V m c main_v36 : (⟨S800768x4, .f32⟩ : BufTy).Contents (Elt F))
      = paddedFeatures (m ((c : Thread nD τ).loc main_arg0)) (m ((c : Thread nD τ).loc main_arg1))
          (m ((c : Thread nD τ).loc main_arg11)) (m ((c : Thread nD τ).loc main_arg12)) := by
  unfold paddedFeatures features
  show after (List.flatten [hostOps0, hostOps0_1, hostOps0_2]) (fun b => m (c, b)) (Proc.devRef .tc main_v36) = _
  rw [entry_split, after_append, late_v36, early_v33 m c, early_v34 m c, early_v25 m c]

/-- The rounded weight matrices the region finds. -/
theorem entry_v37 (c : Dev nD) :
    (V m c main_v37 : (⟨S128x128, .bf16⟩ : BufTy).Contents (Elt F)) = truncf .bf16 (m ((c : Thread nD τ).loc main_arg5)) bitsLt_bf16_f32 := by
  open_entry
  after_results
theorem entry_v38 (c : Dev nD) :
    (V m c main_v38 : (⟨S128x128, .bf16⟩ : BufTy).Contents (Elt F)) = truncf .bf16 (m ((c : Thread nD τ).loc main_arg7)) bitsLt_bf16_f32 := by
  open_entry
  after_results
theorem entry_v39 (c : Dev nD) :
    (V m c main_v39 : (⟨S128x1, .bf16⟩ : BufTy).Contents (Elt F)) = truncf .bf16 (m ((c : Thread nD τ).loc main_arg9)) bitsLt_bf16_f32 := by
  open_entry
  after_results

/-- After the later lines the second result is the torque of the first 800000 rows of the region's output array. -/
theorem final_v51 (c : Dev nD) :
    (finalAt m c main_v51 : (⟨S50000x1, .f32⟩ : BufTy).Contents (Elt F))
      = torque (extractStridedSlice S800000x1 ![0, 0] ((dats m 0 c).arrAt 9 cfg0.N) slices_S800768x1_S800000x1_0_0)
          (m ((c : Thread nD τ).loc main_arg12)) := by
  have hout : Pipeline.withArrays spec0 c (V0 m c) (fun w => (dats m 0 c).arrAt w cfg0.N) (Proc.devRef .tc main_v40)
      = (dats m 0 c).arrAt 9 cfg0.N := Pipeline.withArrays_arr spec0 launch0.win.arr_inj c _ _ 9
  have hdst : Pipeline.withArrays spec0 c (V0 m c) (fun w => (dats m 0 c).arrAt w cfg0.N) (Proc.devRef .tc main_arg12)
      = m ((c : Thread nD τ).loc main_arg12) :=
    (Pipeline.withArrays_of_ne _ c (V0 m c) _ main_arg12 (by exact (by decide : ∀ w, Pipeline.arrRef spec0 w ≠ main_arg12))).trans (V_main_arg12 m c)
  unfold finalAt Pipeline.afterTail₀ torque
  show StableHlo.after hostOps1 (Pipeline.withArrays spec0 c (V0 m c) fun w => (dats m 0 c).arrAt w cfg0.N) (Proc.devRef .tc main_v51) = _
  rw [← hout, ← hdst]
  generalize Pipeline.withArrays spec0 c (V0 m c) (fun w => (dats m 0 c).arrAt w cfg0.N) = W
  read_lines
  try rfl

end Cert.KernelIdeal.HostTerms

end
-- ==== Proof.EdgeSpec.lean ====
/-
  The message an edge sends, as one function on the extended reals.

  An edge carries four features: the displacement (a, b) from its source to its destination, the difference d of the two
  polarity angles, and the source's angle t. The displacement is rotated into the source's polarity frame,
  (a cos t + b sin t, -a sin t + b cos t), and joined with (cos d, sin d). Four affine layers follow, each of the
  first three clamped below at zero: 4 -> 128 -> 128 -> 128 -> 1. The first layer's four products are added from the left,
  then the bias; the later layers add the bias to the sum over the 128 hidden units.
-/
import Idealize.ShloMosaic.PureOps.Ideal

noncomputable section

namespace Cert.EdgeSpec

open Idealize.ShloMosaic

/-- First coordinate of the displacement (a, b) in the frame turned by the angle t. -/
def rotX (a b t : EReal) : EReal := a * Ideal.cos t + b * Ideal.sin t

/-- Second coordinate of the displacement (a, b) in the frame turned by the angle t. -/
def rotY (a b t : EReal) : EReal := -a * Ideal.sin t + b * Ideal.cos t

/-- Hidden unit j of the first layer: the four features against column j of the 4 x 128 weights, plus the bias, clamped
    below at zero. -/
def hidden0 (a b d t : EReal) (w0 : Fin 4 → Fin 128 → EReal) (b0 : Fin 128 → EReal) (j : Fin 128) : EReal :=
  max (rotX a b t * w0 0 j + rotY a b t * w0 1 j + Ideal.cos d * w0 2 j + Ideal.sin d * w0 3 j + b0 j) 0

/-- Hidden unit j of a 128 -> 128 layer: the sum over the incoming units against column j, plus the bias, clamped below
    at zero. -/
def dense (h : Fin 128 → EReal) (w : Fin 128 → Fin 128 → EReal) (b : Fin 128 → EReal) (j : Fin 128) : EReal :=
  max ((∑ k : Fin 128, h k * w k j) + b j) 0

/-- The edge's message: the last layer's single output over the third hidden layer. -/
def message (a b d t : EReal) (w0 : Fin 4 → Fin 128 → EReal) (b0 : Fin 128 → EReal)
    (w1 : Fin 128 → Fin 128 → EReal) (b1 : Fin 128 → EReal) (w2 : Fin 128 → Fin 128 → EReal) (b2 : Fin 128 → EReal)
    (w3 : Fin 128 → EReal) (b3 : EReal) : EReal :=
  (∑ k : Fin 128, dense (dense (hidden0 a b d t w0 b0) w1 b1) w2 b2 k * w3 k) + b3

end Cert.EdgeSpec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KPayload.lean ====
/-
  One row of the kernel's stored block is the edge's message.

  The body stores, for each of its 2048 rows, the value of four affine layers over that row's four features, with the
  weights as it loaded them; the later layers' products run over the 128 hidden units. Row r of the stored block is
  the message of the features in row r.
-/
import proofs.«152819_j28269474742524_1_alg».proof.Proof.Gen.KernelIdeal.Skeleton
import proofs.«152819_j28269474742524_1_alg».proof.Proof.EdgeSpec
import proofs.«152819_j28269474742524_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Idealize.ShloMosaic Idealize.ShloMosaic.ValueIdx Cert.KernelIdeal Cert.KernelIdeal.Gen

/-! ## Layout operations of the body, read at (row, column) -/

/-- Column c of the 2048 x 4 block, cut out as a 2048 x 1 slice, reads row r of that column. -/
theorem featCol_apply {α : Type} (x : S2048x4.Idx → α) (c : Fin 4) (h : S2048x4.Slices ![0, c.val] S2048x1) (r : Fin 2048) :
    extractStridedSlice S2048x1 ![0, c.val] x h (ix2 r (0 : Fin 1)) = x (ix2 r c) :=
  extractStridedSlice_apply ![0, c.val] x h (ix2 r (0 : Fin 1)) (ix2 r c) (fun a => match a with
    | ⟨0, _⟩ => by show r.val = 0 + r.val; omega
    | ⟨1, _⟩ => by show c.val = c.val + 0; omega)

/-- Row k of the 4 x 128 weights, cut out as a 1 x 128 slice, reads column j of that row. -/
theorem weightRow_apply {α : Type} (w : S4x128.Idx → α) (k : Fin 4) (h : S4x128.Slices ![k.val, 0] S1x128) (j : Fin 128) :
    extractStridedSlice S1x128 ![k.val, 0] w h (ix2 (0 : Fin 1) j) = w (ix2 k j) :=
  extractStridedSlice_apply ![k.val, 0] w h (ix2 (0 : Fin 1) j) (ix2 k j) (fun a => match a with
    | ⟨0, _⟩ => by show k.val = k.val + 0; omega
    | ⟨1, _⟩ => by show j.val = 0 + j.val; omega)

/-- A 2048 x 1 column broadcast across 128 columns reads its row. -/
theorem colBcast_apply {α : Type} (x : S2048x1.Idx → α) (h : S2048x1.Broadcasts S2048x128) (r : Fin 2048) (j : Fin 128) :
    broadcastTo S2048x128 x h (ix2 r j) = x (ix2 r (0 : Fin 1)) :=
  broadcastTo_apply x h (ix2 r j) (ix2 r (0 : Fin 1)) (fun a => match a with
    | ⟨0, _⟩ => by show r.val = if (2048 : Nat) = 1 then 0 else r.val; rw [if_neg (by decide)]
    | ⟨1, _⟩ => by show (0 : Nat) = if (1 : Nat) = 1 then 0 else j.val; rw [if_pos rfl])

/-- A 128-vector recast as one row and broadcast down the 2048 rows reads its entry j in column j. -/
theorem rowBias_apply {α : Type} (b : S128.Idx → α) (hc : S128.ShapeCasts S1x128) (hb : S1x128.Broadcasts S2048x128)
    (r : Fin 2048) (j : Fin 128) :
    broadcastTo S2048x128 (shapeCast S1x128 b hc) hb (ix2 r j) = b (ix1 j) :=
  (Cert.LibPlainDot.bcastRow_apply (shapeCast S1x128 b hc) hb r j).trans
    (shapeCast_apply b hc (ix2 ⟨0, Nat.one_pos⟩ j) (ix1 j) (by
      rw [Shape.rowMajor_val_one, Shape.rowMajor_val_two]
      show j.val = 0 * 128 + j.val
      omega))

/-- A 1-vector recast as 1 x 1 and broadcast down the 2048 rows reads its one entry. -/
theorem lastBias_apply {α : Type} (b : S1.Idx → α) (hc : S1.ShapeCasts S1x1) (hb : S1x1.Broadcasts S2048x1) (r : Fin 2048) :
    broadcastTo S2048x1 (shapeCast S1x1 b hc) hb (ix2 r (0 : Fin 1)) = b (ix1 (0 : Fin 1)) :=
  (Cert.LibPlainDot.bcastRow_apply (shapeCast S1x1 b hc) hb r (0 : Fin 1)).trans
    (shapeCast_apply b hc (ix2 ⟨0, Nat.one_pos⟩ (0 : Fin 1)) (ix1 (0 : Fin 1)) (by
      rw [Shape.rowMajor_val_one, Shape.rowMajor_val_two]
      rfl))

/-! ## The three products -/

/-- The body's 2048 x 128 by 128 x 128 product into the zero accumulator, read at (r, c). -/
theorem mm128_apply (lhs : FVec Ideal S2048x128 .bf16) (rhs : FVec Ideal S128x128 .bf16) (r : Fin 2048) (c : Fin 128) :
    matmul dot_S2048x128_S128x128_S2048x128_1_0_0_1_n_n none lhs rhs (constant (F := Ideal) S2048x128 .f32 0x00000000#32) (ix2 r c)
      = ∑ k : Fin 128, lhs (ix2 r k) * rhs (ix2 k c) :=
  Cert.LibPlainDot.matmul_plain_apply 2048 128 128 lhs rhs r c

/-- The body's 2048 x 128 by 128 x 1 product into the zero accumulator, read at (r, 0). -/
theorem mm1_apply (lhs : FVec Ideal S2048x128 .bf16) (rhs : FVec Ideal S128x1 .bf16) (r : Fin 2048) (c : Fin 1) :
    matmul dot_S2048x128_S128x1_S2048x1_1_0_0_1_n_n none lhs rhs (constant (F := Ideal) S2048x1 .f32 0x00000000#32) (ix2 r c)
      = ∑ k : Fin 128, lhs (ix2 r k) * rhs (ix2 k c) :=
  Cert.LibPlainDot.matmul_plain_apply 2048 128 1 lhs rhs r c

/-- Row k of the 4 x 128 weights, cut out as one row and broadcast down the 2048 rows, reads column j of that row. -/
theorem weightRowBcast_apply {α : Type} (w : S4x128.Idx → α) (k : Fin 4) (hs : S4x128.Slices ![k.val, 0] S1x128)
    (hb : S1x128.Broadcasts S2048x128) (r : Fin 2048) (j : Fin 128) :
    broadcastTo S2048x128 (extractStridedSlice S1x128 ![k.val, 0] w hs) hb (ix2 r j) = w (ix2 k j) :=
  (Cert.LibPlainDot.bcastRow_apply (extractStridedSlice S1x128 ![k.val, 0] w hs) hb r j).trans (weightRow_apply w k hs j)

/-! ## The two payloads at an index -/

/-- The first payload at (r, j): the first layer's 128 hidden units of row r against column j of the second weights. -/
theorem pay2_apply (x0 : Vec Ideal S2048x4 .f32) (w0 : Vec Ideal S4x128 .f32) (b0 : Vec Ideal S128 .f32)
    (w1 : Vec Ideal S128x128 .bf16) (r : Fin 2048) (j : Fin 128) :
    k0_pay2 (F := Ideal) x0 w0 b0 w1 (ix2 r j)
      = ∑ k : Fin 128, Cert.EdgeSpec.hidden0 (x0 (ix2 r (0 : Fin 4))) (x0 (ix2 r (1 : Fin 4))) (x0 (ix2 r (2 : Fin 4)))
          (x0 (ix2 r (3 : Fin 4))) (fun k j => w0 (ix2 k j)) (fun j => b0 (ix1 j)) k * w1 (ix2 k j) := by
  unfold k0_pay2
  refine (mm128_apply _ _ r j).trans ?_
  refine Finset.sum_congr rfl fun k _ => ?_
  rw [shapeCast_self, shapeCast_self]
  refine congrArg (· * w1 (ix2 k j)) ?_
  have xa : extractStridedSlice S2048x1 ![0, 0] x0 slices_S2048x4_o0_0_S2048x1 (ix2 r (0 : Fin 1)) = x0 (ix2 r (0 : Fin 4)) :=
    featCol_apply x0 0 _ r
  have xb : extractStridedSlice S2048x1 ![0, 1] x0 slices_S2048x4_o0_1_S2048x1 (ix2 r (0 : Fin 1)) = x0 (ix2 r (1 : Fin 4)) :=
    featCol_apply x0 1 _ r
  have xd : extractStridedSlice S2048x1 ![0, 2] x0 slices_S2048x4_o0_2_S2048x1 (ix2 r (0 : Fin 1)) = x0 (ix2 r (2 : Fin 4)) :=
    featCol_apply x0 2 _ r
  have xt : extractStridedSlice S2048x1 ![0, 3] x0 slices_S2048x4_o0_3_S2048x1 (ix2 r (0 : Fin 1)) = x0 (ix2 r (3 : Fin 4)) :=
    featCol_apply x0 3 _ r
  have wa : broadcastTo S2048x128 (extractStridedSlice S1x128 ![0, 0] w0 slices_S4x128_o0_0_S1x128) broadcasts_S1x128_S2048x128
      (ix2 r k) = w0 (ix2 (0 : Fin 4) k) := weightRowBcast_apply w0 0 _ _ r k
  have wb : broadcastTo S2048x128 (extractStridedSlice S1x128 ![1, 0] w0 slices_S4x128_o1_0_S1x128) broadcasts_S1x128_S2048x128
      (ix2 r k) = w0 (ix2 (1 : Fin 4) k) := weightRowBcast_apply w0 1 _ _ r k
  have wc : broadcastTo S2048x128 (extractStridedSlice S1x128 ![2, 0] w0 slices_S4x128_o2_0_S1x128) broadcasts_S1x128_S2048x128
      (ix2 r k) = w0 (ix2 (2 : Fin 4) k) := weightRowBcast_apply w0 2 _ _ r k
  have wd : broadcastTo S2048x128 (extractStridedSlice S1x128 ![3, 0] w0 slices_S4x128_o3_0_S1x128) broadcasts_S1x128_S2048x128
      (ix2 r k) = w0 (ix2 (3 : Fin 4) k) := weightRowBcast_apply w0 3 _ _ r k
  simp only [truncf_apply, maximumf_apply, addf_apply, mulf_apply, subf_apply, broadcast_apply, colBcast_apply, rowBias_apply,
    Idealize.ShloMosaic.cos, Idealize.ShloMosaic.sin, xa, xb, xd, xt, wa, wb, wc, wd, Ideal.cos_def, Ideal.sin_def, Ideal.ofBits_def,
    Ideal.ofBits_zero_f32, zero_sub]
  rfl

/-- The second payload at (r, 0), over any 2048 x 128 block of second-layer sums: bias and clamp, the third layer's
    product, bias and clamp, the last layer's product and bias. -/
theorem pay1_apply (v47 : FVec Ideal S2048x128 .f32) (b1 : Vec Ideal S128 .f32) (w2 : Vec Ideal S128x128 .bf16)
    (b2 : Vec Ideal S128 .f32) (w3 : Vec Ideal S128x1 .bf16) (b3 : Vec Ideal S1 .f32) (r : Fin 2048) :
    k0_pay1 (F := Ideal) v47 b1 w2 b2 w3 b3 (ix2 r (0 : Fin 1))
      = (∑ k : Fin 128, max ((∑ i : Fin 128, max (v47 (ix2 r i) + b1 (ix1 i)) 0 * w2 (ix2 i k)) + b2 (ix1 k)) 0
            * w3 (ix2 k (0 : Fin 1))) + b3 (ix1 (0 : Fin 1)) := by
  unfold k0_pay1
  rw [shapeCast_self, shapeCast_self]
  rw [addf_apply, lastBias_apply]
  refine congrArg (· + b3 (ix1 (0 : Fin 1))) ?_
  refine (mm1_apply _ _ r 0).trans ?_
  refine Finset.sum_congr rfl fun k _ => ?_
  refine congrArg (· * w3 (ix2 k (0 : Fin 1))) ?_
  rw [truncf_apply, maximumf_apply, addf_apply, rowBias_apply, broadcast_apply, mm128_apply]
  rw [Ideal.ofBits_def, Ideal.ofBits_zero_f32]
  refine congrArg (fun s => max (s + b2 (ix1 k)) 0) ?_
  refine Finset.sum_congr rfl fun i _ => ?_
  rw [truncf_apply, maximumf_apply, addf_apply, rowBias_apply, broadcast_apply]

/-- Row r of the block the body stores is the message of row r's four features under the loaded weights. -/
theorem pay_apply (x0 : Vec Ideal S2048x4 .f32) (w0 : Vec Ideal S4x128 .f32) (b0 : Vec Ideal S128 .f32)
    (w1 : Vec Ideal S128x128 .bf16) (b1 : Vec Ideal S128 .f32) (w2 : Vec Ideal S128x128 .bf16) (b2 : Vec Ideal S128 .f32)
    (w3 : Vec Ideal S128x1 .bf16) (b3 : Vec Ideal S1 .f32) (r : Fin 2048) :
    k0_pay1 (F := Ideal) (k0_pay2 (F := Ideal) x0 w0 b0 w1) b1 w2 b2 w3 b3 (ix2 r (0 : Fin 1))
      = Cert.EdgeSpec.message (x0 (ix2 r (0 : Fin 4))) (x0 (ix2 r (1 : Fin 4))) (x0 (ix2 r (2 : Fin 4))) (x0 (ix2 r (3 : Fin 4)))
          (fun k j => w0 (ix2 k j)) (fun j => b0 (ix1 j)) (fun k j => w1 (ix2 k j)) (fun j => b1 (ix1 j))
          (fun k j => w2 (ix2 k j)) (fun j => b2 (ix1 j)) (fun k => w3 (ix2 k (0 : Fin 1))) (b3 (ix1 (0 : Fin 1))) := by
  rw [pay1_apply]
  simp only [pay2_apply]
  rfl

end Cert.KernelIdeal.EdgeValue

end
-- ==== Proof.KIdealValue.lean ====
/-
  The region's output array, whole: every row of the 800768 x 1 array the region writes is the message of that row's four
  features in the padded feature array, under the weights as the region finds them.

  Grid point t writes back rows 2048 t … 2048 t + 2047, and the 391 points cover all 800768 rows. The block point t stores
  is, row by row, the message of the rows of its feature block, which are rows 2048 t + r of the padded feature array; the
  weight and bias windows are whole arrays at every point.
-/
import proofs.«152819_j28269474742524_1_alg».proof.Proof.KIdealRun
import proofs.«152819_j28269474742524_1_alg».proof.Proof.KPayload
import proofs.«152819_j28269474742524_1_alg».proof.Proof.EdgeSpec
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.Region
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The message of row e of a feature array P of 800768 rows and four columns, under weight and bias arrays. -/
def rowMessage (P : S800768x4.Idx → Elt Ideal .f32) (W0 : S4x128.Idx → Elt Ideal .f32) (b0 : S128.Idx → Elt Ideal .f32)
    (W1 : S128x128.Idx → Elt Ideal .bf16) (b1 : S128.Idx → Elt Ideal .f32) (W2 : S128x128.Idx → Elt Ideal .bf16)
    (b2 : S128.Idx → Elt Ideal .f32) (W3 : S128x1.Idx → Elt Ideal .bf16) (b3 : S1.Idx → Elt Ideal .f32) (e : Fin 800768) : EReal :=
  Cert.EdgeSpec.message (P (ix2 e (0 : Fin 4))) (P (ix2 e (1 : Fin 4))) (P (ix2 e (2 : Fin 4))) (P (ix2 e (3 : Fin 4)))
    (fun k j => W0 (ix2 k j)) (fun j => b0 (ix1 j)) (fun k j => W1 (ix2 k j)) (fun j => b1 (ix1 j))
    (fun k j => W2 (ix2 k j)) (fun j => b2 (ix1 j)) (fun k => W3 (ix2 k (0 : Fin 1))) (b3 (ix1 (0 : Fin 1)))

/-- The 800768 x 1 array whose row e is the message of row e of P. -/
def messages (P : S800768x4.Idx → Elt Ideal .f32) (W0 : S4x128.Idx → Elt Ideal .f32) (b0 : S128.Idx → Elt Ideal .f32)
    (W1 : S128x128.Idx → Elt Ideal .bf16) (b1 : S128.Idx → Elt Ideal .f32) (W2 : S128x128.Idx → Elt Ideal .bf16)
    (b2 : S128.Idx → Elt Ideal .f32) (W3 : S128x1.Idx → Elt Ideal .bf16) (b3 : S1.Idx → Elt Ideal .f32) :
    S800768x1.Idx → Elt Ideal .f32 :=
  fun i => rowMessage P W0 b0 W1 b1 W2 b2 W3 b3 ⟨(i 0).val, (i 0).isLt⟩

/-- The block indices of the ten windows at grid point t: the feature and output windows are at block (t, 0), the weight
    and bias windows at block zero on every axis. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The pair of zero offsets is the zero function. -/
theorem zeros2 : (![0, 0] : Fin 2 → Nat) = fun _ => 0 := funext fun a => by fin_cases a <;> rfl
/-- The single zero offset is the zero function. -/
theorem zeros1 : (![0] : Fin 1 → Nat) = fun _ => 0 := funext fun a => by fin_cases a; rfl

/-- A grid point is below 391. -/
theorem point_lt (t : Fin cfg0.N) : t.val < 391 := t.isLt

/-! ## The input blocks at a point -/

abbrev featBlk (c : Dev nD) (t : Fin cfg0.N) : Vec Ideal S2048x4 .f32 := iblk m c 0 t
abbrev w0Blk (c : Dev nD) (t : Fin cfg0.N) : Vec Ideal S4x128 .f32 := iblk m c 1 t
abbrev b0Blk (c : Dev nD) (t : Fin cfg0.N) : Vec Ideal S128 .f32 := iblk m c 2 t
abbrev w1Blk (c : Dev nD) (t : Fin cfg0.N) : Vec Ideal S128x128 .bf16 := iblk m c 3 t
abbrev b1Blk (c : Dev nD) (t : Fin cfg0.N) : Vec Ideal S128 .f32 := iblk m c 4 t
abbrev w2Blk (c : Dev nD) (t : Fin cfg0.N) : Vec Ideal S128x128 .bf16 := iblk m c 5 t
abbrev b2Blk (c : Dev nD) (t : Fin cfg0.N) : Vec Ideal S128 .f32 := iblk m c 6 t
abbrev w3Blk (c : Dev nD) (t : Fin cfg0.N) : Vec Ideal S128x1 .bf16 := iblk m c 7 t
abbrev b3Blk (c : Dev nD) (t : Fin cfg0.N) : Vec Ideal S1 .f32 := iblk m c 8 t

/-- Row r of the feature block at point t is row 2048 t + r of the padded feature array. -/
theorem featBlk_apply (c : Dev nD) (t : Fin cfg0.N) (r : Fin 2048) (k : Fin 4) :
    featBlk m c t (ix2 r k)
      = V m c main_v36 (ix2 (⟨2048 * t.val + r.val, by have := point_lt t; omega⟩ : Fin 800768) k) := by
  show V m c main_v36 (((cfg0.win 0).blk t).view.emb (ix2 r k)) = V m c main_v36 _
  refine congrArg (V m c main_v36) ?_
  obtain ⟨e0, e1, -⟩ := blockIndex t
  funext a; apply Fin.ext
  match a with
  | ⟨0, _⟩ => show win0_0.index t (0 : Fin 2) * 2048 + 1 * r.val = 2048 * t.val + r.val; omega
  | ⟨1, _⟩ => show win0_0.index t (1 : Fin 2) * 4 + 1 * k.val = k.val; omega

/-- The first layer's weight block at any point is the whole 4 x 128 array. -/
theorem w0Blk_apply (c : Dev nD) (t : Fin cfg0.N) (k : Fin 4) (j : Fin 128) :
    w0Blk m c t (ix2 k j) = V m c main_arg3 (ix2 k j) := by
  show V m c main_arg3 (((cfg0.win 1).blk t).view.emb (ix2 k j)) = V m c main_arg3 _
  refine congrArg (V m c main_arg3) ?_
  obtain ⟨-, -, e0, e1, -⟩ := blockIndex t
  funext a; apply Fin.ext
  match a with
  | ⟨0, _⟩ => show win0_1.index t (0 : Fin 2) * 4 + 1 * k.val = k.val; omega
  | ⟨1, _⟩ => show win0_1.index t (1 : Fin 2) * 128 + 1 * j.val = j.val; omega

/-- The first layer's bias block at any point is the whole array. -/
theorem b0Blk_apply (c : Dev nD) (t : Fin cfg0.N) (j : Fin 128) :
    b0Blk m c t (ix1 j) = V m c main_arg4 (ix1 j) := by
  show V m c main_arg4 (((cfg0.win 2).blk t).view.emb (ix1 j)) = V m c main_arg4 _
  refine congrArg (V m c main_arg4) ?_
  obtain ⟨-, -, -, -, e0, -⟩ := blockIndex t
  funext a; apply Fin.ext
  match a with
  | ⟨0, _⟩ => show win0_2.index t (0 : Fin 1) * 128 + 1 * j.val = j.val; omega

/-- The second layer's weight block at any point is the whole 128 x 128 array. -/
theorem w1Blk_apply (c : Dev nD) (t : Fin cfg0.N) (k : Fin 128) (j : Fin 128) :
    w1Blk m c t (ix2 k j) = V m c main_v37 (ix2 k j) := by
  show V m c main_v37 (((cfg0.win 3).blk t).view.emb (ix2 k j)) = V m c main_v37 _
  refine congrArg (V m c main_v37) ?_
  obtain ⟨-, -, -, -, -, e0, e1, -⟩ := blockIndex t
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The second layer's bias block at any point is the whole array. -/
theorem b1Blk_apply (c : Dev nD) (t : Fin cfg0.N) (j : Fin 128) :
    b1Blk m c t (ix1 j) = V m c main_arg6 (ix1 j) := by
  show V m c main_arg6 (((cfg0.win 4).blk t).view.emb (ix1 j)) = V m c main_arg6 _
  refine congrArg (V m c main_arg6) ?_
  obtain ⟨-, -, -, -, -, -, -, e0, -⟩ := blockIndex t
  funext a; apply Fin.ext
  match a with
  | ⟨0, _⟩ => show win0_4.index t (0 : Fin 1) * 128 + 1 * j.val = j.val; omega

/-- The third layer's weight block at any point is the whole 128 x 128 array. -/
theorem w2Blk_apply (c : Dev nD) (t : Fin cfg0.N) (k : Fin 128) (j : Fin 128) :
    w2Blk m c t (ix2 k j) = V m c main_v38 (ix2 k j) := by
  show V m c main_v38 (((cfg0.win 5).blk t).view.emb (ix2 k j)) = V m c main_v38 _
  refine congrArg (V m c main_v38) ?_
  obtain ⟨-, -, -, -, -, -, -, -, e0, e1, -⟩ := blockIndex t
  funext a; apply Fin.ext
  match a with
  | ⟨0, _⟩ => show win0_5.index t (0 : Fin 2) * 128 + 1 * k.val = k.val; omega
  | ⟨1, _⟩ => show win0_5.index t (1 : Fin 2) * 128 + 1 * j.val = j.val; omega

/-- The third layer's bias block at any point is the whole array. -/
theorem b2Blk_apply (c : Dev nD) (t : Fin cfg0.N) (j : Fin 128) :
    b2Blk m c t (ix1 j) = V m c main_arg8 (ix1 j) := by
  show V m c main_arg8 (((cfg0.win 6).blk t).view.emb (ix1 j)) = V m c main_arg8 _
  refine congrArg (V m c main_arg8) ?_
  obtain ⟨-, -, -, -, -, -, -, -, -, -, e0, -⟩ := blockIndex t
  funext a; apply Fin.ext
  match a with
  | ⟨0, _⟩ => show win0_6.index t (0 : Fin 1) * 128 + 1 * j.val = j.val; omega

/-- The last layer's weight block at any point is the whole 128 x 1 array. -/
theorem w3Blk_apply (c : Dev nD) (t : Fin cfg0.N) (k : Fin 128) (j : Fin 1) :
    w3Blk m c t (ix2 k j) = V m c main_v39 (ix2 k j) := by
  show V m c main_v39 (((cfg0.win 7).blk t).view.emb (ix2 k j)) = V m c main_v39 _
  refine congrArg (V m c main_v39) ?_
  obtain ⟨-, -, -, -, -, -, -, -, -, -, -, e0, e1, -⟩ := blockIndex t
  funext a; apply Fin.ext
  match a with
  | ⟨0, _⟩ => show win0_7.index t (0 : Fin 2) * 128 + 1 * k.val = k.val; omega
  | ⟨1, _⟩ => show win0_7.index t (1 : Fin 2) * 1 + 1 * j.val = j.val; omega

/-- The last layer's bias block at any point is the whole one-entry array. -/
theorem b3Blk_apply (c : Dev nD) (t : Fin cfg0.N) (j : Fin 1) :
    b3Blk m c t (ix1 j) = V m c main_arg10 (ix1 j) := by
  show V m c main_arg10 (((cfg0.win 8).blk t).view.emb (ix1 j)) = V m c main_arg10 _
  refine congrArg (V m c main_arg10) ?_
  obtain ⟨-, -, -, -, -, -, -, -, -, -, -, -, -, e0, -⟩ := blockIndex t
  funext a; apply Fin.ext
  match a with
  | ⟨0, _⟩ => show win0_8.index t (0 : Fin 1) * 1 + 1 * j.val = j.val; omega

/-! ## The output block at a point -/

/-- Row r of the output block at point t is row 2048 t + r of the output array. -/
theorem outRow (t : Fin cfg0.N) (r : Fin 2048) :
    ((((cfg0.win 9).blk t).view.emb (ix2 r (0 : Fin 1)) : S800768x1.Idx) 0).val = 2048 * t.val + r.val := by
  obtain ⟨-, -, -, -, -, -, -, -, -, -, -, -, -, -, e0, e1⟩ := blockIndex t
  show win0_9.index t (0 : Fin 2) * 2048 + 1 * r.val = 2048 * t.val + r.val
  omega

/-- What point t writes back is block t of the array of messages. -/
theorem flushed_eq (c : Dev nD) (t : Fin cfg0.N) :
    (dats m 0 c).flushed 9 t = ((cfg0.win 9).blk t).view.read (Elt Ideal)
      (messages (V m c main_v36) (V m c main_arg3) (V m c main_arg4) (V m c main_v37) (V m c main_arg6) (V m c main_v38)
          (V m c main_arg8) (V m c main_v39) (V m c main_arg10)) := by
  show (cfg0.win 9).cut (grid0.coords t) ((dats m 0 c).after 9 t) = _
  rw [after0_9]
  unfold outBlock
  rw [View.canon_unit_zero zeros2]
  simp only [View.ld_unit_zero (S := S2048x4) zeros2, View.ld_unit_zero (S := S4x128) zeros2, View.ld_unit_zero (S := S128) zeros1,
    View.ld_unit_zero (S := S128x128) zeros2, View.ld_unit_zero (S := S128x1) zeros2, View.ld_unit_zero (S := S1) zeros1]
  funext j
  obtain ⟨r, q, rfl⟩ : ∃ (r : Fin 2048) (q : Fin 1), j = ix2 r q := ⟨j 0, j 1, eq_ix2 j⟩
  obtain rfl : q = 0 := Subsingleton.elim q 0
  show k0_pay1 (F := Ideal) (k0_pay2 (F := Ideal) (featBlk m c t) (w0Blk m c t) (b0Blk m c t) (w1Blk m c t)) (b1Blk m c t) (w2Blk m c t)
        (b2Blk m c t) (w3Blk m c t) (b3Blk m c t) (ix2 r (0 : Fin 1))
      = messages (V m c main_v36) (V m c main_arg3) (V m c main_arg4) (V m c main_v37) (V m c main_arg6) (V m c main_v38)
          (V m c main_arg8) (V m c main_v39) (V m c main_arg10) (((cfg0.win 9).blk t).view.emb (ix2 r (0 : Fin 1)))
  refine (Cert.KernelIdeal.EdgeValue.pay_apply (featBlk m c t) (w0Blk m c t) (b0Blk m c t) (w1Blk m c t) (b1Blk m c t) (w2Blk m c t)
        (b2Blk m c t) (w3Blk m c t) (b3Blk m c t) r).trans ?_
  rw [featBlk_apply m c t r 0, featBlk_apply m c t r 1, featBlk_apply m c t r 2, featBlk_apply m c t r 3, b3Blk_apply m c t 0]
  simp only [w0Blk_apply m c t, b0Blk_apply m c t, w1Blk_apply m c t, b1Blk_apply m c t, w2Blk_apply m c t, b2Blk_apply m c t,
    w3Blk_apply m c t]
  exact (congrArg (rowMessage (V m c main_v36) (V m c main_arg3) (V m c main_arg4) (V m c main_v37) (V m c main_arg6) (V m c main_v38)
    (V m c main_arg8) (V m c main_v39) (V m c main_arg10)) (Fin.ext (outRow t r))).symm

/-! ## The blocks cover the array -/

/-- A row of the output array is in point t's block iff it is one of rows 2048 t … 2048 t + 2047. -/
theorem mem_outBlk (t : Fin cfg0.N) (i : S800768x1.Idx) :
    i ∈ ((cfg0.win 9).blk t).view.set ↔ ∀ a : Fin 2, win0_9.index t a * S2048x1.size a ≤ (i a).val
      ∧ (i a).val < win0_9.index t a * S2048x1.size a + S2048x1.size a := by
  show i ∈ ((View.whole main_v40).slice (win0_9.rect t)).set ↔ _
  rw [View.set_slice_whole, Rect.mem_set_unit]
  exact Iff.rfl

/-- Every row e of the output array is written back, by point e / 2048. -/
theorem rows_covered (i : S800768x1.Idx) :
    ∃ t : Fin cfg0.N, (cfg0.win 9).flush t = true ∧ i ∈ ((cfg0.win 9).blk t).view.set := by
  have hi0 : (i 0).val < 800768 := (i 0).isLt
  have hi1 : (i 1).val < 1 := (i 1).isLt
  have hlt : (i 0).val / 2048 < 391 := by omega
  refine ⟨⟨(i 0).val / 2048, hlt⟩, flush0_9 _, ?_⟩
  rw [mem_outBlk]
  obtain ⟨-, -, -, -, -, -, -, -, -, -, -, -, -, -, e0, e1⟩ := blockIndex ⟨(i 0).val / 2048, hlt⟩
  have e0' : win0_9.index ⟨(i 0).val / 2048, hlt⟩ (0 : Fin 2) = (i 0).val / 2048 := e0
  intro a
  match a with
  | ⟨0, _⟩ =>
    show win0_9.index ⟨(i 0).val / 2048, hlt⟩ (0 : Fin 2) * 2048 ≤ (i 0).val
      ∧ (i 0).val < win0_9.index ⟨(i 0).val / 2048, hlt⟩ (0 : Fin 2) * 2048 + 2048
    omega
  | ⟨1, _⟩ =>
    show win0_9.index ⟨(i 0).val / 2048, hlt⟩ (1 : Fin 2) * 1 ≤ (i 1).val
      ∧ (i 1).val < win0_9.index ⟨(i 0).val / 2048, hlt⟩ (1 : Fin 2) * 1 + 1
    omega

/-- The region's output array after the run: the messages of the padded feature array's rows under the weights the region
    finds. -/
theorem final9 (c : Dev nD) :
    (dats m 0 c).arrAt 9 cfg0.N
      = messages (V m c main_v36) (V m c main_arg3) (V m c main_arg4) (V m c main_v37) (V m c main_arg6) (V m c main_v38)
          (V m c main_arg8) (V m c main_v39) (V m c main_arg10) :=
  (dats m 0 c).arrAt_eq_of_cover 9 (messages (V m c main_v36) (V m c main_arg3) (V m c main_arg4) (V m c main_v37) (V m c main_arg6)
      (V m c main_v38) (V m c main_arg8) (V m c main_v39) (V m c main_arg10)) (fun t _ => flushed_eq m c t) rows_covered

end Cert.KernelIdeal.RegionValue

end
-- ==== Proof.RefEdge.lean ====
/-
  One row of the reference's message array is the edge's message.

  The reference joins the rotated displacement with the cosine and sine of the angle difference into four columns, takes
  the product with the 4 x 128 weights, adds the bias and clamps at zero, twice more through 128 x 128 layers, and once
  through the 128 x 1 layer: row e of the result is the message of edge e's displacement, angle difference and source angle.
-/
import proofs.«152819_j28269474742524_1_alg».proof.Proof.Gen.ReferenceIdeal.Run
import proofs.«152819_j28269474742524_1_alg».proof.Proof.Gen.ReferenceIdeal.Read
import proofs.«152819_j28269474742524_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.EdgeValue

open Idealize.ShloMosaic Idealize.ShloMosaic.ValueIdx Cert.ReferenceIdeal Cert.ReferenceIdeal.Read

section Layers

variable (x0 : (⟨S50000x2, .f32⟩ : BufTy).Contents (Elt Ideal)) (x1 : (⟨S50000x1, .f32⟩ : BufTy).Contents (Elt Ideal))
  (x3 : (⟨S4x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x1, .f32⟩ : BufTy).Contents (Elt Ideal)) (x10 : (⟨S1, .f32⟩ : BufTy).Contents (Elt Ideal))
  (x11 x12 : (⟨S800000, .i32⟩ : BufTy).Contents (Elt Ideal))

/-! ### The indices the layout operations read, at a row and a column -/

theorem idx_v39 (e : Fin 800000) : idx_main_v39 (ix2 e (0 : Fin 1)) = ix2 e (0 : Fin 2) :=
  funext fun a => Fin.ext (by match a with | ⟨0, _⟩ => rfl | ⟨1, _⟩ => rfl)

theorem idx_v41 (e : Fin 800000) : idx_main_v41 (ix2 e (0 : Fin 1)) = ix2 e (1 : Fin 2) :=
  funext fun a => Fin.ext (by match a with | ⟨0, _⟩ => rfl | ⟨1, _⟩ => rfl)

theorem idx_v44 (e : Fin 800000) : idx_main_v44 (ix2 e (0 : Fin 1)) = ix2 e (0 : Fin 2) :=
  funext fun a => Fin.ext (by match a with | ⟨0, _⟩ => rfl | ⟨1, _⟩ => rfl)

theorem idx_v47 (e : Fin 800000) : idx_main_v47 (ix2 e (0 : Fin 1)) = ix2 e (1 : Fin 2) :=
  funext fun a => Fin.ext (by match a with | ⟨0, _⟩ => rfl | ⟨1, _⟩ => rfl)

/-! ### The rotated displacement -/

/-- The first joined column is the displacement's first coordinate in the source's frame. -/
theorem v43_row (e : Fin 800000) :
    val_main_v43 (F := Ideal) x0 x1 x11 x12 (ix2 e (0 : Fin 1))
      = Cert.EdgeSpec.rotX (val_main_v33 (F := Ideal) x0 x11 x12 (ix2 e (0 : Fin 2)))
          (val_main_v33 (F := Ideal) x0 x11 x12 (ix2 e (1 : Fin 2))) (val_main_v25 (F := Ideal) x1 x11 (ix2 e (0 : Fin 1))) := by
  rw [val_main_v43_apply, val_main_v40_apply, val_main_v42_apply, val_main_v39_apply, val_main_v41_apply,
    val_main_v37_apply, val_main_v38_apply, idx_v39, idx_v41]
  simp only [Ideal.addf_def, Ideal.mulf_def, Ideal.hostUnary_cos_def, Ideal.hostUnary_sin_def, Cert.EdgeSpec.rotX]

/-- The second joined column is the displacement's second coordinate in the source's frame. -/
theorem v49_row (e : Fin 800000) :
    val_main_v49 (F := Ideal) x0 x1 x11 x12 (ix2 e (0 : Fin 1))
      = Cert.EdgeSpec.rotY (val_main_v33 (F := Ideal) x0 x11 x12 (ix2 e (0 : Fin 2)))
          (val_main_v33 (F := Ideal) x0 x11 x12 (ix2 e (1 : Fin 2))) (val_main_v25 (F := Ideal) x1 x11 (ix2 e (0 : Fin 1))) := by
  rw [val_main_v49_apply, val_main_v46_apply, val_main_v48_apply, val_main_v45_apply, val_main_v44_apply, val_main_v47_apply,
    val_main_v37_apply, val_main_v38_apply, idx_v44, idx_v47]
  simp only [Ideal.addf_def, Ideal.mulf_def, Ideal.hostNegf_def, Ideal.negf_def, Ideal.hostUnary_cos_def,
    Ideal.hostUnary_sin_def, Cert.EdgeSpec.rotY]

/-! ### The four joined columns -/

section Join

open Cert.ReferenceIdeal.Gen

variable (y0 y1 y2 y3 : (⟨S800000x1, .f32⟩ : BufTy).Contents (Elt Ideal))

/-- Along the second axis a one-column piece keeps the row of the index it is read at. -/
theorem join_row (e : Fin 800000) (k : Fin 4) (b : Fin S800000x1.rank) (hb : b.cast (rfl : S800000x1.rank = S800000x4.rank) ≠ (1 : Fin S800000x4.rank)) :
    ((ix2 e (0 : Fin 1) : S800000x1.Idx) b).val = ((ix2 e k : S800000x4.Idx) (b.cast rfl)).val := by
  match b, hb with
  | ⟨0, _⟩, _ => rfl
  | ⟨1, _⟩, hb => exact absurd rfl hb

/-- Column 0 of four single columns joined side by side is the first. -/
theorem join_col0 (e : Fin 800000) :
    concatenate S800000x4 1 [⟨S800000x1, y0⟩, ⟨S800000x1, y1⟩, ⟨S800000x1, y2⟩, ⟨S800000x1, y3⟩]
        concatenates_S800000x1_S800000x1_S800000x1_S800000x1_S800000x4_d1 (ix2 e (0 : Fin 4)) = y0 (ix2 e (0 : Fin 1)) :=
  concatenate_apply_piece 1 _ _ (ix2 e (0 : Fin 4)) 0 (by show (0 : Nat) < 4; omega) S800000x1 y0 rfl rfl 0 rfl (ix2 e (0 : Fin 1))
    (join_row e 0) rfl

/-- Column 1 is the second. -/
theorem join_col1 (e : Fin 800000) :
    concatenate S800000x4 1 [⟨S800000x1, y0⟩, ⟨S800000x1, y1⟩, ⟨S800000x1, y2⟩, ⟨S800000x1, y3⟩]
        concatenates_S800000x1_S800000x1_S800000x1_S800000x1_S800000x4_d1 (ix2 e (1 : Fin 4)) = y1 (ix2 e (0 : Fin 1)) :=
  concatenate_apply_piece 1 _ _ (ix2 e (1 : Fin 4)) 1 (by show (1 : Nat) < 4; omega) S800000x1 y1 rfl rfl 1 rfl (ix2 e (0 : Fin 1))
    (join_row e 1) rfl

/-- Column 2 is the third. -/
theorem join_col2 (e : Fin 800000) :
    concatenate S800000x4 1 [⟨S800000x1, y0⟩, ⟨S800000x1, y1⟩, ⟨S800000x1, y2⟩, ⟨S800000x1, y3⟩]
        concatenates_S800000x1_S800000x1_S800000x1_S800000x1_S800000x4_d1 (ix2 e (2 : Fin 4)) = y2 (ix2 e (0 : Fin 1)) :=
  concatenate_apply_piece 1 _ _ (ix2 e (2 : Fin 4)) 2 (by show (2 : Nat) < 4; omega) S800000x1 y2 rfl rfl 2 rfl (ix2 e (0 : Fin 1))
    (join_row e 2) rfl

/-- Column 3 is the fourth. -/
theorem join_col3 (e : Fin 800000) :
    concatenate S800000x4 1 [⟨S800000x1, y0⟩, ⟨S800000x1, y1⟩, ⟨S800000x1, y2⟩, ⟨S800000x1, y3⟩]
        concatenates_S800000x1_S800000x1_S800000x1_S800000x1_S800000x4_d1 (ix2 e (3 : Fin 4)) = y3 (ix2 e (0 : Fin 1)) :=
  concatenate_apply_piece 1 _ _ (ix2 e (3 : Fin 4)) 3 (by show (3 : Nat) < 4; omega) S800000x1 y3 rfl rfl 3 rfl (ix2 e (0 : Fin 1))
    (join_row e 3) rfl

end Join

/-- The joined array's row e: the rotated displacement, then the cosine and the sine of the angle difference. -/
theorem v50_col0 (e : Fin 800000) :
    val_main_v50 (F := Ideal) x0 x1 x11 x12 (ix2 e (0 : Fin 4)) = val_main_v43 (F := Ideal) x0 x1 x11 x12 (ix2 e (0 : Fin 1)) := by
  unfold val_main_v50
  exact join_col0 _ _ _ _ e

theorem v50_col1 (e : Fin 800000) :
    val_main_v50 (F := Ideal) x0 x1 x11 x12 (ix2 e (1 : Fin 4)) = val_main_v49 (F := Ideal) x0 x1 x11 x12 (ix2 e (0 : Fin 1)) := by
  unfold val_main_v50
  exact join_col1 _ _ _ _ e

theorem v50_col2 (e : Fin 800000) :
    val_main_v50 (F := Ideal) x0 x1 x11 x12 (ix2 e (2 : Fin 4)) = val_main_v35 (F := Ideal) x1 x11 x12 (ix2 e (0 : Fin 1)) := by
  unfold val_main_v50
  exact join_col2 _ _ _ _ e

theorem v50_col3 (e : Fin 800000) :
    val_main_v50 (F := Ideal) x0 x1 x11 x12 (ix2 e (3 : Fin 4)) = val_main_v36 (F := Ideal) x1 x11 x12 (ix2 e (0 : Fin 1)) := by
  unfold val_main_v50
  exact join_col3 _ _ _ _ e

/-! ### The first layer -/

theorem lidx_v51 (e : Fin 800000) (j : Fin 128) (k : Fin 4) : lidx_main_v51 (ix2 e j) k = ix2 e k :=
  funext fun a => Fin.ext (by match a with | ⟨0, _⟩ => rfl | ⟨1, _⟩ => rfl)

theorem ridx_v51 (e : Fin 800000) (j : Fin 128) (k : Fin 4) : ridx_main_v51 (ix2 e j) k = ix2 k j :=
  funext fun a => Fin.ext (by match a with | ⟨0, _⟩ => rfl | ⟨1, _⟩ => rfl)

theorem idx_v53 (e : Fin 800000) (j : Fin 128) : idx_main_v52 (idx_main_v53 (ix2 e j)) = ix1 j :=
  funext fun a => Fin.ext (by match a with | ⟨0, _⟩ => rfl)

/-- Row e, column j after the first clamp is hidden unit j of the first layer. -/
theorem v55_row (e : Fin 800000) (j : Fin 128) :
    val_main_v55 (F := Ideal) x0 x1 x3 x4 x11 x12 (ix2 e j)
      = Cert.EdgeSpec.hidden0
          (val_main_v33 (F := Ideal) x0 x11 x12 (ix2 e (0 : Fin 2))) (val_main_v33 (F := Ideal) x0 x11 x12 (ix2 e (1 : Fin 2)))
          (val_main_v34 (F := Ideal) x1 x11 x12 (ix2 e (0 : Fin 1))) (val_main_v25 (F := Ideal) x1 x11 (ix2 e (0 : Fin 1)))
          (fun k j => x3 (ix2 k j)) (fun j => x4 (ix1 j)) j := by
  rw [val_main_v55_apply, val_main_v54_apply, val_main_v51_apply, val_main_v53_apply, val_main_v52_apply,
    val_main_call0_v0_apply, val_main_call0_cst_apply, idx_v53, Fin.sum_univ_four]
  simp only [lidx_v51, ridx_v51]
  rw [v50_col0, v50_col1, v50_col2, v50_col3, v43_row, v49_row, val_main_v35_apply, val_main_v36_apply]
  simp only [Ideal.addf_def, Ideal.maximumf_def, Ideal.hostUnary_cos_def, Ideal.hostUnary_sin_def, Ideal.ofBits_def,
    Ideal.ofBits_zero_f32, Cert.EdgeSpec.hidden0]

/-! ### The two 128 x 128 layers -/

theorem lidx_v56 (e : Fin 800000) (j k : Fin 128) : lidx_main_v56 (ix2 e j) k = ix2 e k :=
  funext fun a => Fin.ext (by match a with | ⟨0, _⟩ => rfl | ⟨1, _⟩ => rfl)

theorem ridx_v56 (e : Fin 800000) (j k : Fin 128) : ridx_main_v56 (ix2 e j) k = ix2 k j :=
  funext fun a => Fin.ext (by match a with | ⟨0, _⟩ => rfl | ⟨1, _⟩ => rfl)

theorem idx_v58 (e : Fin 800000) (j : Fin 128) : idx_main_v57 (idx_main_v58 (ix2 e j)) = ix1 j :=
  funext fun a => Fin.ext (by match a with | ⟨0, _⟩ => rfl)

/-- Row e, column j after the second clamp is unit j of the second layer over the first layer's units. -/
theorem v60_row (e : Fin 800000) (j : Fin 128) :
    val_main_v60 (F := Ideal) x0 x1 x3 x4 x5 x6 x11 x12 (ix2 e j)
      = Cert.EdgeSpec.dense (Cert.EdgeSpec.hidden0
          (val_main_v33 (F := Ideal) x0 x11 x12 (ix2 e (0 : Fin 2))) (val_main_v33 (F := Ideal) x0 x11 x12 (ix2 e (1 : Fin 2)))
          (val_main_v34 (F := Ideal) x1 x11 x12 (ix2 e (0 : Fin 1))) (val_main_v25 (F := Ideal) x1 x11 (ix2 e (0 : Fin 1)))
          (fun k j => x3 (ix2 k j)) (fun j => x4 (ix1 j))) (fun k j => x5 (ix2 k j)) (fun j => x6 (ix1 j)) j := by
  rw [val_main_v60_apply, val_main_v59_apply, val_main_v56_apply, val_main_v58_apply, val_main_v57_apply,
    val_main_call1_v0_apply, val_main_call1_cst_apply, idx_v58]
  simp only [lidx_v56, ridx_v56, v55_row]
  simp only [Ideal.addf_def, Ideal.maximumf_def, Ideal.ofBits_def, Ideal.ofBits_zero_f32, Cert.EdgeSpec.dense]

theorem lidx_v61 (e : Fin 800000) (j k : Fin 128) : lidx_main_v61 (ix2 e j) k = ix2 e k :=
  funext fun a => Fin.ext (by match a with | ⟨0, _⟩ => rfl | ⟨1, _⟩ => rfl)

theorem ridx_v61 (e : Fin 800000) (j k : Fin 128) : ridx_main_v61 (ix2 e j) k = ix2 k j :=
  funext fun a => Fin.ext (by match a with | ⟨0, _⟩ => rfl | ⟨1, _⟩ => rfl)

theorem idx_v63 (e : Fin 800000) (j : Fin 128) : idx_main_v62 (idx_main_v63 (ix2 e j)) = ix1 j :=
  funext fun a => Fin.ext (by match a with | ⟨0, _⟩ => rfl)

/-- Row e, column j after the third clamp is unit j of the third layer over the second layer's units. -/
theorem v65_row (e : Fin 800000) (j : Fin 128) :
    val_main_v65 (F := Ideal) x0 x1 x3 x4 x5 x6 x7 x8 x11 x12 (ix2 e j)
      = Cert.EdgeSpec.dense (Cert.EdgeSpec.dense (Cert.EdgeSpec.hidden0
          (val_main_v33 (F := Ideal) x0 x11 x12 (ix2 e (0 : Fin 2))) (val_main_v33 (F := Ideal) x0 x11 x12 (ix2 e (1 : Fin 2)))
          (val_main_v34 (F := Ideal) x1 x11 x12 (ix2 e (0 : Fin 1))) (val_main_v25 (F := Ideal) x1 x11 (ix2 e (0 : Fin 1)))
          (fun k j => x3 (ix2 k j)) (fun j => x4 (ix1 j))) (fun k j => x5 (ix2 k j)) (fun j => x6 (ix1 j)))
          (fun k j => x7 (ix2 k j)) (fun j => x8 (ix1 j)) j := by
  rw [val_main_v65_apply, val_main_v64_apply, val_main_v61_apply, val_main_v63_apply, val_main_v62_apply,
    val_main_call2_v0_apply, val_main_call2_cst_apply, idx_v63]
  simp only [lidx_v61, ridx_v61, v60_row]
  simp only [Ideal.addf_def, Ideal.maximumf_def, Ideal.ofBits_def, Ideal.ofBits_zero_f32, Cert.EdgeSpec.dense]

/-! ### The last layer -/

theorem lidx_v66 (e : Fin 800000) (k : Fin 128) : lidx_main_v66 (ix2 e (0 : Fin 1)) k = ix2 e k :=
  funext fun a => Fin.ext (by match a with | ⟨0, _⟩ => rfl | ⟨1, _⟩ => rfl)

theorem ridx_v66 (e : Fin 800000) (k : Fin 128) : ridx_main_v66 (ix2 e (0 : Fin 1)) k = ix2 k (0 : Fin 1) :=
  funext fun a => Fin.ext (by match a with | ⟨0, _⟩ => rfl | ⟨1, _⟩ => rfl)

theorem idx_v68 (e : Fin 800000) : idx_main_v67 (idx_main_v68 (ix2 e (0 : Fin 1))) = ix1 (0 : Fin 1) :=
  funext fun a => Fin.ext (by match a with | ⟨0, _⟩ => rfl)

end Layers

/-- Row e of the reference's message array is the message of edge e's features: the two displacement coordinates, the
    angle difference and the source's angle, each as the reference computes it, under the weight arguments. -/
theorem ref_message (x0 : (⟨S50000x2, .f32⟩ : BufTy).Contents (Elt Ideal)) (x1 : (⟨S50000x1, .f32⟩ : BufTy).Contents (Elt Ideal)) (x3 : (⟨S4x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x1, .f32⟩ : BufTy).Contents (Elt Ideal)) (x10 : (⟨S1, .f32⟩ : BufTy).Contents (Elt Ideal)) (x11 x12 : (⟨S800000, .i32⟩ : BufTy).Contents (Elt Ideal)) (e : Fin 800000) :
    val_main_v69 (F := Ideal) x0 x1 x3 x4 x5 x6 x7 x8 x9 x10 x11 x12 (ix2 e (0 : Fin 1))
      = Cert.EdgeSpec.message
          (val_main_v33 (F := Ideal) x0 x11 x12 (ix2 e (0 : Fin 2))) (val_main_v33 (F := Ideal) x0 x11 x12 (ix2 e (1 : Fin 2)))
          (val_main_v34 (F := Ideal) x1 x11 x12 (ix2 e (0 : Fin 1))) (val_main_v25 (F := Ideal) x1 x11 (ix2 e (0 : Fin 1)))
          (fun k j => x3 (ix2 k j)) (fun j => x4 (ix1 j)) (fun k j => x5 (ix2 k j)) (fun j => x6 (ix1 j))
          (fun k j => x7 (ix2 k j)) (fun j => x8 (ix1 j)) (fun k => x9 (ix2 k (0 : Fin 1))) (x10 (ix1 (0 : Fin 1))) := by
  rw [val_main_v69_apply, val_main_v66_apply, val_main_v68_apply, val_main_v67_apply, idx_v68]
  simp only [lidx_v66, ridx_v66, v65_row]
  simp only [Ideal.addf_def, Cert.EdgeSpec.message]

end Cert.ReferenceIdeal.EdgeValue

end
-- ==== Proof.Bridge.lean ====
/-
  The kernel's message array, cut back to the 800000 edges, is the reference's.

  Row e of the kernel's array is the message of row e of the padded feature array. For e below 800000 that row lies outside
  the padding, so it is row e of the four joined feature columns: the two coordinates of the displacement, the angle
  difference, the source's angle. These are the reference's own arrays of the same arguments, and at the ideal instance
  the weight matrices the kernel rounds are unchanged entry by entry. So both rows are the message of the same four
  features under the same weights.
-/
import proofs.«152819_j28269474742524_1_alg».proof.Proof.KIdealValue
import proofs.«152819_j28269474742524_1_alg».proof.Proof.KIdealTerms
import proofs.«152819_j28269474742524_1_alg».proof.Proof.RefEdge
import proofs.«152819_j28269474742524_1_alg».proof.Proof.LibPlainDot
import Idealize.ShloMosaic.Lib.KernelVsHost
import Idealize.ShloMosaic.Lib.Pipeline.Value
import Idealize.ShloMosaic.Lib.ValueIdx

noncomputable section

namespace Cert.Bridge

open Idealize.ShloMosaic Idealize.ShloMosaic.ValueIdx
open Cert.KernelIdeal Cert.KernelIdeal.Gen Cert.KernelIdeal.HostTerms Cert.KernelIdeal.RegionValue

/-! ## The four columns of the joined features -/

section Columns

variable (dr : (⟨S800000x2, .f32⟩ : BufTy).Contents (Elt Ideal)) (dth ths : (⟨S800000x1, .f32⟩ : BufTy).Contents (Elt Ideal))

/-- Off the joined axis, an index of the two-column piece keeps the row of the index it is read at. -/
theorem row_of_pair (e : Fin 800000) (k : Fin 4) (q : Fin 2) (b : Fin S800000x2.rank)
    (hb : b.cast (rfl : S800000x2.rank = S800000x4.rank) ≠ (1 : Fin S800000x4.rank)) :
    ((ix2 e q : S800000x2.Idx) b).val = ((ix2 e k : S800000x4.Idx) (b.cast rfl)).val := by
  match b, hb with
  | ⟨0, _⟩, _ => rfl
  | ⟨1, _⟩, hb => exact absurd rfl hb

/-- The same for a one-column piece. -/
theorem row_of_single (e : Fin 800000) (k : Fin 4) (b : Fin S800000x1.rank)
    (hb : b.cast (rfl : S800000x1.rank = S800000x4.rank) ≠ (1 : Fin S800000x4.rank)) :
    ((ix2 e (0 : Fin 1) : S800000x1.Idx) b).val = ((ix2 e k : S800000x4.Idx) (b.cast rfl)).val := by
  match b, hb with
  | ⟨0, _⟩, _ => rfl
  | ⟨1, _⟩, hb => exact absurd rfl hb

/-- Column 0 of the join is the first column of the two-column piece. -/
theorem joined_col0 (e : Fin 800000) :
    concatenate S800000x4 1 [⟨S800000x2, dr⟩, ⟨S800000x1, dth⟩, ⟨S800000x1, ths⟩]
        concatenates_S800000x2_S800000x1_S800000x1_S800000x4_d1 (ix2 e (0 : Fin 4)) = dr (ix2 e (0 : Fin 2)) :=
  concatenate_apply_piece 1 _ _ (ix2 e (0 : Fin 4)) 0 (by show (0 : Nat) < 3; omega) S800000x2 dr rfl rfl 0 rfl (ix2 e (0 : Fin 2))
    (row_of_pair e 0 0) rfl

/-- Column 1 is its second column. -/
theorem joined_col1 (e : Fin 800000) :
    concatenate S800000x4 1 [⟨S800000x2, dr⟩, ⟨S800000x1, dth⟩, ⟨S800000x1, ths⟩]
        concatenates_S800000x2_S800000x1_S800000x1_S800000x4_d1 (ix2 e (1 : Fin 4)) = dr (ix2 e (1 : Fin 2)) :=
  concatenate_apply_piece 1 _ _ (ix2 e (1 : Fin 4)) 0 (by show (0 : Nat) < 3; omega) S800000x2 dr rfl rfl 0 rfl (ix2 e (1 : Fin 2))
    (row_of_pair e 1 1) rfl

/-- Column 2 is the second piece, after the two columns of the first. -/
theorem joined_col2 (e : Fin 800000) :
    concatenate S800000x4 1 [⟨S800000x2, dr⟩, ⟨S800000x1, dth⟩, ⟨S800000x1, ths⟩]
        concatenates_S800000x2_S800000x1_S800000x1_S800000x4_d1 (ix2 e (2 : Fin 4)) = dth (ix2 e (0 : Fin 1)) :=
  concatenate_apply_piece 1 _ _ (ix2 e (2 : Fin 4)) 1 (by show (1 : Nat) < 3; omega) S800000x1 dth rfl rfl 2 rfl (ix2 e (0 : Fin 1))
    (row_of_single e 2) rfl

/-- Column 3 is the third piece, after three columns. -/
theorem joined_col3 (e : Fin 800000) :
    concatenate S800000x4 1 [⟨S800000x2, dr⟩, ⟨S800000x1, dth⟩, ⟨S800000x1, ths⟩]
        concatenates_S800000x2_S800000x1_S800000x1_S800000x4_d1 (ix2 e (3 : Fin 4)) = ths (ix2 e (0 : Fin 1)) :=
  concatenate_apply_piece 1 _ _ (ix2 e (3 : Fin 4)) 2 (by show (2 : Nat) < 3; omega) S800000x1 ths rfl rfl 3 rfl (ix2 e (0 : Fin 1))
    (row_of_single e 3) rfl

end Columns

/-! ## A row above the padding -/

/-- Below 768 rows of padding, row e of the padded array (e < 800000) is row e of the array. -/
theorem padded_apply (feat : (⟨S800000x4, .f32⟩ : BufTy).Contents (Elt Ideal)) (v : (⟨S_, .f32⟩ : BufTy).Contents (Elt Ideal)) (e : Fin 800000) (r : Fin 800768)
    (hr : r.val = e.val) (k : Fin 4) :
    pad S800768x4 ![0, 0] ![768, 0] ![0, 0] feat v pads_S800000x4_S800768x4_07680_000 h_S_ (ix2 r k) = feat (ix2 e k) :=
  pad_apply_of_inside _ _ _ feat v _ _ (ix2 r k) (ix2 e k) (fun a => by
    match a with
    | ⟨0, _⟩ => show r.val = 0 + e.val * (0 + 1); omega
    | ⟨1, _⟩ => show k.val = 0 + k.val * (0 + 1); omega)

variable (x0 : (⟨S50000x2, .f32⟩ : BufTy).Contents (Elt Ideal)) (x1 : (⟨S50000x1, .f32⟩ : BufTy).Contents (Elt Ideal)) (x3 : (⟨S4x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x1, .f32⟩ : BufTy).Contents (Elt Ideal)) (x10 : (⟨S1, .f32⟩ : BufTy).Contents (Elt Ideal)) (x11 x12 : (⟨S800000, .i32⟩ : BufTy).Contents (Elt Ideal))

/-- The kernel's displacement, angle difference and source angle are the reference's arrays of the same arguments. -/
theorem displacement_eq : displacement (F := Ideal) x0 x11 x12 = Cert.ReferenceIdeal.Read.val_main_v33 (F := Ideal) x0 x11 x12 := rfl
theorem angleDifference_eq : angleDifference (F := Ideal) x1 x11 x12 = Cert.ReferenceIdeal.Read.val_main_v34 (F := Ideal) x1 x11 x12 := rfl
theorem sourceAngle_eq : sourceAngle (F := Ideal) x1 x11 = Cert.ReferenceIdeal.Read.val_main_v25 (F := Ideal) x1 x11 := rfl

/-- Row r = e of the padded features holds edge e's four features as the reference has them. -/
theorem padded_row (e : Fin 800000) (r : Fin 800768) (hr : r.val = e.val) :
    paddedFeatures (F := Ideal) x0 x1 x11 x12 (ix2 r (0 : Fin 4)) = Cert.ReferenceIdeal.Read.val_main_v33 (F := Ideal) x0 x11 x12 (ix2 e (0 : Fin 2))
    ∧ paddedFeatures (F := Ideal) x0 x1 x11 x12 (ix2 r (1 : Fin 4)) = Cert.ReferenceIdeal.Read.val_main_v33 (F := Ideal) x0 x11 x12 (ix2 e (1 : Fin 2))
    ∧ paddedFeatures (F := Ideal) x0 x1 x11 x12 (ix2 r (2 : Fin 4)) = Cert.ReferenceIdeal.Read.val_main_v34 (F := Ideal) x1 x11 x12 (ix2 e (0 : Fin 1))
    ∧ paddedFeatures (F := Ideal) x0 x1 x11 x12 (ix2 r (3 : Fin 4)) = Cert.ReferenceIdeal.Read.val_main_v25 (F := Ideal) x1 x11 (ix2 e (0 : Fin 1)) := by
  unfold paddedFeatures features
  refine ⟨?_, ?_, ?_, ?_⟩
  · rw [padded_apply _ _ e r hr 0, joined_col0, displacement_eq]
  · rw [padded_apply _ _ e r hr 1, joined_col1, displacement_eq]
  · rw [padded_apply _ _ e r hr 2, joined_col2, angleDifference_eq]
  · rw [padded_apply _ _ e r hr 3, joined_col3, sourceAngle_eq]

/-- A row of the message array is the row's message. -/
theorem messages_row (P : S800768x4.Idx → Elt Ideal .f32) (W0 : S4x128.Idx → Elt Ideal .f32) (b0 : S128.Idx → Elt Ideal .f32)
    (W1 : S128x128.Idx → Elt Ideal .bf16) (b1 : S128.Idx → Elt Ideal .f32) (W2 : S128x128.Idx → Elt Ideal .bf16)
    (b2 : S128.Idx → Elt Ideal .f32) (W3 : S128x1.Idx → Elt Ideal .bf16) (b3 : S1.Idx → Elt Ideal .f32) (r : Fin 800768) (q : Fin 1) :
    messages P W0 b0 W1 b1 W2 b2 W3 b3 (ix2 r q) = rowMessage P W0 b0 W1 b1 W2 b2 W3 b3 r := rfl

/-- Row r = e of the kernel's message array is the reference's message of edge e: the same four features, and weights the
    rounding leaves unchanged. -/
theorem rowMessage_padded (e : Fin 800000) (r : Fin 800768) (hr : r.val = e.val) :
    rowMessage (paddedFeatures (F := Ideal) x0 x1 x11 x12) x3 x4 (truncf (F := Ideal) .bf16 x5 bitsLt_bf16_f32) x6
        (truncf (F := Ideal) .bf16 x7 bitsLt_bf16_f32) x8 (truncf (F := Ideal) .bf16 x9 bitsLt_bf16_f32) x10 r
      = Cert.EdgeSpec.message
          (Cert.ReferenceIdeal.Read.val_main_v33 (F := Ideal) x0 x11 x12 (ix2 e (0 : Fin 2)))
          (Cert.ReferenceIdeal.Read.val_main_v33 (F := Ideal) x0 x11 x12 (ix2 e (1 : Fin 2)))
          (Cert.ReferenceIdeal.Read.val_main_v34 (F := Ideal) x1 x11 x12 (ix2 e (0 : Fin 1)))
          (Cert.ReferenceIdeal.Read.val_main_v25 (F := Ideal) x1 x11 (ix2 e (0 : Fin 1)))
          (fun k j => x3 (ix2 k j)) (fun j => x4 (ix1 j)) (fun k j => x5 (ix2 k j)) (fun j => x6 (ix1 j))
          (fun k j => x7 (ix2 k j)) (fun j => x8 (ix1 j)) (fun k => x9 (ix2 k (0 : Fin 1))) (x10 (ix1 (0 : Fin 1))) := by
  obtain ⟨h0, h1, h2, h3⟩ := padded_row x0 x1 x11 x12 e r hr
  unfold rowMessage
  rw [h0, h1, h2, h3]
  rfl

/-- The kernel's message array, cut back to 800000 rows, is the reference's message array. -/
theorem messages_agree :
    extractStridedSlice S800000x1 ![0, 0]
        (messages (paddedFeatures (F := Ideal) x0 x1 x11 x12) x3 x4 (truncf (F := Ideal) .bf16 x5 bitsLt_bf16_f32) x6
          (truncf (F := Ideal) .bf16 x7 bitsLt_bf16_f32) x8 (truncf (F := Ideal) .bf16 x9 bitsLt_bf16_f32) x10)
        slices_S800768x1_S800000x1_0_0
      = Cert.ReferenceIdeal.Read.val_main_v69 (F := Ideal) x0 x1 x3 x4 x5 x6 x7 x8 x9 x10 x11 x12 := by
  funext i
  obtain ⟨e, q, rfl⟩ : ∃ (e : Fin 800000) (q : Fin 1), i = ix2 e q := ⟨i 0, i 1, eq_ix2 i⟩
  obtain rfl : q = 0 := Subsingleton.elim _ _
  rw [Cert.ReferenceIdeal.EdgeValue.ref_message,
    Cert.LibPlainDot.slice2_apply 0 0 _ slices_S800768x1_S800000x1_0_0 e (0 : Fin 1) (by have := e.isLt; omega) (by decide)]
  exact (messages_row _ _ _ _ _ _ _ _ _ _ _).trans
    (rowMessage_padded x0 x1 x3 x4 x5 x6 x7 x8 x9 x10 x11 x12 e _ (Nat.zero_add _))

end Cert.Bridge

end
-- ==== Proof.lean ====
/-
  A message-passing layer over a graph of 50000 nodes and 800000 edges, two ways, computes one function.

  Every node has a position and a polarity angle. Each edge gathers its endpoints' positions and angles, forms the
  displacement from source to destination, the difference of the two angles and the source's angle, rotates the displacement
  into the source's polarity frame, joins it with the cosine and sine of the angle difference, and passes these four numbers
  through four affine layers 4 -> 128 -> 128 -> 128 -> 1, the first three clamped below at zero. The messages are averaged
  per destination node; the node velocities, speed times (cos, sin) of the angle, are returned beside the averages.

  The reference does all of this on whole arrays. The kernel's program does the gathers, the differences and the averaging in
  the same way, and the per-edge part in a region over 391 blocks of 2048 edges, the 800000 feature rows padded with 768
  zero rows and the padded results cut off again; inside it the rotation and the first layer are written out as four
  products added from the left, and the three later layers are products into a zero accumulator of weights rounded to
  a shorter format. On the extended reals rounding is the identity, a product into a zero accumulator is the sum over the
  contracted axis, and the first layer's four-term sum is associated the same way on both sides; so each edge's message is
  one function of its four features on both sides, the padding rows never reach a result, and the averaging is the same
  operations of equal arrays. No law here needs finiteness: the precondition is not used.

  The frames: the reference is host operations only and its run is read back operation by operation. The kernel's program,
  at the word level and idealized, is host lines, the region, host lines: the region's body reads nine whole buffers and
  stores one whole block, so the pipeline's proof data name every staged buffer at every grid point, the run terminates
  without a fault, and no line writes an argument array.
-/
import proofs.«152819_j28269474742524_1_alg».proof.Defs
import proofs.«152819_j28269474742524_1_alg».proof.Proof.Gen.Kernel
import proofs.«152819_j28269474742524_1_alg».proof.Proof.Gen.KernelIdeal
import proofs.«152819_j28269474742524_1_alg».proof.Proof.Gen.ReferenceIdeal
import proofs.«152819_j28269474742524_1_alg».proof.Proof.Gen.Pre_finite_inputs
import proofs.«152819_j28269474742524_1_alg».proof.Proof.Gen.ReferenceIdeal.Run
import proofs.«152819_j28269474742524_1_alg».proof.Proof.Gen.ReferenceIdeal.Read
import proofs.«152819_j28269474742524_1_alg».proof.Proof.KBitsRun
import proofs.«152819_j28269474742524_1_alg».proof.Proof.KIdealRun
import proofs.«152819_j28269474742524_1_alg».proof.Proof.KIdealTerms
import proofs.«152819_j28269474742524_1_alg».proof.Proof.KIdealValue
import proofs.«152819_j28269474742524_1_alg».proof.Proof.Bridge
import Idealize.ShloMosaic.Adequacy
import Idealize.ShloMosaic.Init

noncomputable section

namespace Cert.Proof

open Idealize.ShloMosaic Idealize.SL.Sem

/-- The word-level program terminates without a fault and leaves its arguments unchanged. -/
theorem frame_kernel : Cert.frame_Kernel := fun m ρ _ => Cert.Kernel.Region.frame (F := Bits) m ρ

/-- So does its idealization. -/
theorem frame_kernelIdeal : Cert.frame_KernelIdeal := fun m ρ _ => Cert.KernelIdeal.Region.frame (F := Ideal) m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 4000000 in
open Cert.KernelIdeal.Region Cert.KernelIdeal.HostTerms Cert.KernelIdeal.RegionValue in
/-- From memories agreeing on the arguments both programs end with the velocities of the launched angles and speed, and with
    the per-node mean of one and the same message array. -/
theorem algebraic : Cert.algebraic_KernelIdeal_ReferenceIdeal := by
  intro m ρ m' ρ' _ hagree
  refine ⟨fun c => velocity (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => torque (F := Ideal)
      (Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg12)), ?_, ?_⟩
  · refine (θ_run Cert.KernelIdeal.defs _ _).mono (fun r h c => ⟨?_, ?_, args_kept m r h c⟩) (run_main (F := Ideal) m ρ)
    · exact ((h c).2 Cert.KernelIdeal.main_v4 (Pipeline.mem_restRefs_of Cert.KernelIdeal.main_v4 (by decide) (by decide))).trans
        ((final_main_v4 m c).trans (entry_v4 m c))
    · refine ((h c).2 Cert.KernelIdeal.main_v51 (Pipeline.mem_restRefs_of Cert.KernelIdeal.main_v51 (by decide) (by decide))).trans
        ((final_v51 m c).trans ?_)
      rw [final9 m c, entry_v36 m c, entry_v37 m c, entry_v38 m c, entry_v39 m c, V_main_arg3 m c, V_main_arg4 m c,
        V_main_arg6 m c, V_main_arg8 m c, V_main_arg10 m c, Cert.Bridge.messages_agree]
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12⟩ := hagree c
      rw [a1, a2]
      rfl
    · obtain ⟨a0, a1, a2, a3, a4, a5, a6, a7, a8, a9, a10, a11, a12⟩ := hagree c
      rw [Cert.ReferenceIdeal.Read.val_main_v79_eq, a0, a1, a3, a4, a5, a6, a7, a8, a9, a10, a11, a12]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
